-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x800000 32) (main_arg2 : FVec F S128x128 .f32) (main_arg3 : FVec F S128 .f32) (main_arg4 : FVec F S128x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x128 : Shape := ⟨2, ![100000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x800000 : Shape := ⟨2, ![1, 800000]⟩
abbrev S800000 : Shape := ⟨1, ![800000]⟩
abbrev S900000 : Shape := ⟨1, ![900000]⟩
abbrev S_ : Shape := ⟨0, ![]⟩
abbrev S900000x1 : Shape := ⟨2, ![900000, 1]⟩
abbrev S5000x128 : Shape := ⟨2, ![5000, 128]⟩
abbrev S900000x128 : Shape := ⟨2, ![900000, 128]⟩
abbrev S1x128 : Shape := ⟨2, ![1, 128]⟩
abbrev S100000x64 : Shape := ⟨2, ![100000, 64]⟩
abbrev S5000x64 : Shape := ⟨2, ![5000, 64]⟩
abbrev S900000x64 : Shape := ⟨2, ![900000, 64]⟩
abbrev S1x64 : Shape := ⟨2, ![1, 64]⟩

abbrev nBuf : Space → Nat
  | .hbm => 104
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x800000, .i32⟩
  | .hbm, ⟨8, _⟩ => ⟨S800000, .i32⟩
  | .hbm, ⟨9, _⟩ => ⟨S900000, .i32⟩
  | .hbm, ⟨10, _⟩ => ⟨S1x800000, .i32⟩
  | .hbm, ⟨11, _⟩ => ⟨S800000, .i32⟩
  | .hbm, ⟨12, _⟩ => ⟨S900000, .i32⟩
  | .hbm, ⟨13, _⟩ => ⟨S_, .f32⟩
  | .hbm, ⟨14, _⟩ => ⟨S100000, .f32⟩
  | .hbm, ⟨15, _⟩ => ⟨S_, .i32⟩
  | .hbm, ⟨16, _⟩ => ⟨S900000, .i32⟩
  | .hbm, ⟨17, _⟩ => ⟨S900000, .i1⟩
  | .hbm, ⟨18, _⟩ => ⟨S_, .i32⟩
  | .hbm, ⟨19, _⟩ => ⟨S900000, .i32⟩
  | .hbm, ⟨20, _⟩ => ⟨S900000, .i32⟩
  | .hbm, ⟨21, _⟩ => ⟨S900000, .i32⟩
  | .hbm, ⟨22, _⟩ => ⟨S900000x1, .i32⟩
  | .hbm, ⟨23, _⟩ => ⟨S_, .f32⟩
  | .hbm, ⟨24, _⟩ => ⟨S900000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .i1⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S900000, .i32⟩
  | .hbm, ⟨36, _⟩ => ⟨S900000, .i1⟩
  | .hbm, ⟨37, _⟩ => ⟨S_, .i32⟩
  | .hbm, ⟨38, _⟩ => ⟨S900000, .i32⟩
  | .hbm, ⟨39, _⟩ => ⟨S900000, .i32⟩
  | .hbm, ⟨40, _⟩ => ⟨S900000, .i32⟩
  | .hbm, ⟨41, _⟩ => ⟨S900000x1, .i32⟩
  | .hbm, ⟨42, _⟩ => ⟨S900000, .f32⟩
  | .hbm, ⟨43, _⟩ => ⟨S_, .i32⟩
  | .hbm, ⟨44, _⟩ => ⟨S900000, .i32⟩
  | .hbm, ⟨45, _⟩ => ⟨S900000, .i1⟩
  | .hbm, ⟨46, _⟩ => ⟨S_, .i32⟩
  | .hbm, ⟨47, _⟩ => ⟨S900000, .i32⟩
  | .hbm, ⟨48, _⟩ => ⟨S900000, .i32⟩
  | .hbm, ⟨49, _⟩ => ⟨S900000, .i32⟩
  | .hbm, ⟨50, _⟩ => ⟨S900000x1, .i32⟩
  | .hbm, ⟨51, _⟩ => ⟨S900000, .f32⟩
  | .hbm, ⟨52, _⟩ => ⟨S900000, .f32⟩
  | .hbm, ⟨53, _⟩ => ⟨S100000x128, .f32⟩
  | .hbm, ⟨54, _⟩ => ⟨S_, .i32⟩
  | .hbm, ⟨55, _⟩ => ⟨S900000, .i32⟩
  | .hbm, ⟨56, _⟩ => ⟨S900000, .i1⟩
  | .hbm, ⟨57, _⟩ => ⟨S_, .i32⟩
  | .hbm, ⟨58, _⟩ => ⟨S900000, .i32⟩
  | .hbm, ⟨59, _⟩ => ⟨S900000, .i32⟩
  | .hbm, ⟨60, _⟩ => ⟨S900000, .i32⟩
  | .hbm, ⟨61, _⟩ => ⟨S900000x1, .i32⟩
  | .hbm, ⟨62, _⟩ => ⟨S900000x128, .f32⟩
  | .hbm, ⟨63, _⟩ => ⟨S900000x1, .f32⟩
  | .hbm, ⟨64, _⟩ => ⟨S900000x128, .f32⟩
  | .hbm, ⟨65, _⟩ => ⟨S900000x128, .f32⟩
  | .hbm, ⟨66, _⟩ => ⟨S_, .f32⟩
  | .hbm, ⟨67, _⟩ => ⟨S100000x128, .f32⟩
  | .hbm, ⟨68, _⟩ => ⟨S_, .i32⟩
  | .hbm, ⟨69, _⟩ => ⟨S900000, .i32⟩
  | .hbm, ⟨70, _⟩ => ⟨S900000, .i1⟩
  | .hbm, ⟨71, _⟩ => ⟨S_, .i32⟩
  | .hbm, ⟨72, _⟩ => ⟨S900000, .i32⟩
  | .hbm, ⟨73, _⟩ => ⟨S900000, .i32⟩
  | .hbm, ⟨74, _⟩ => ⟨S900000, .i32⟩
  | .hbm, ⟨75, _⟩ => ⟨S900000x1, .i32⟩
  | .hbm, ⟨76, _⟩ => ⟨S100000x128, .f32⟩
  | .hbm, ⟨77, _⟩ => ⟨S1x128, .f32⟩
  | .hbm, ⟨78, _⟩ => ⟨S100000x64, .f32⟩
  | .hbm, ⟨79, _⟩ => ⟨S_, .i32⟩
  | .hbm, ⟨80, _⟩ => ⟨S900000, .i32⟩
  | .hbm, ⟨81, _⟩ => ⟨S900000, .i1⟩
  | .hbm, ⟨82, _⟩ => ⟨S_, .i32⟩
  | .hbm, ⟨83, _⟩ => ⟨S900000, .i32⟩
  | .hbm, ⟨84, _⟩ => ⟨S900000, .i32⟩
  | .hbm, ⟨85, _⟩ => ⟨S900000, .i32⟩
  | .hbm, ⟨86, _⟩ => ⟨S900000x1, .i32⟩
  | .hbm, ⟨87, _⟩ => ⟨S900000x64, .f32⟩
  | .hbm, ⟨88, _⟩ => ⟨S900000x1, .f32⟩
  | .hbm, ⟨89, _⟩ => ⟨S900000x64, .f32⟩
  | .hbm, ⟨90, _⟩ => ⟨S900000x64, .f32⟩
  | .hbm, ⟨91, _⟩ => ⟨S_, .f32⟩
  | .hbm, ⟨92, _⟩ => ⟨S100000x64, .f32⟩
  | .hbm, ⟨93, _⟩ => ⟨S_, .i32⟩
  | .hbm, ⟨94, _⟩ => ⟨S900000, .i32⟩
  | .hbm, ⟨95, _⟩ => ⟨S900000, .i1⟩
  | .hbm, ⟨96, _⟩ => ⟨S_, .i32⟩
  | .hbm, ⟨97, _⟩ => ⟨S900000, .i32⟩
  | .hbm, ⟨98, _⟩ => ⟨S900000, .i32⟩
  | .hbm, ⟨99, _⟩ => ⟨S900000, .i32⟩
  | .hbm, ⟨100, _⟩ => ⟨S900000x1, .i32⟩
  | .hbm, ⟨101, _⟩ => ⟨S100000x64, .f32⟩
  | .hbm, ⟨102, _⟩ => ⟨S1x64, .f32⟩
  | .hbm, ⟨103, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_c_5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_c_7 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_c_9 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_10 : Ref sig .tc := ⟨.hbm, 66, rfl⟩
abbrev main_v46 : Ref sig .tc := ⟨.hbm, 67, rfl⟩
abbrev main_c_11 : Ref sig .tc := ⟨.hbm, 68, rfl⟩
abbrev main_v47 : Ref sig .tc := ⟨.hbm, 69, rfl⟩
abbrev main_v48 : Ref sig .tc := ⟨.hbm, 70, rfl⟩
abbrev main_c_12 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_c_13 : Ref sig .tc := ⟨.hbm, 79, rfl⟩
abbrev main_v56 : Ref sig .tc := ⟨.hbm, 80, rfl⟩
abbrev main_v57 : Ref sig .tc := ⟨.hbm, 81, rfl⟩
abbrev main_c_14 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_15 : Ref sig .tc := ⟨.hbm, 91, rfl⟩
abbrev main_v66 : Ref sig .tc := ⟨.hbm, 92, rfl⟩
abbrev main_c_16 : Ref sig .tc := ⟨.hbm, 93, rfl⟩
abbrev main_v67 : Ref sig .tc := ⟨.hbm, 94, rfl⟩
abbrev main_v68 : Ref sig .tc := ⟨.hbm, 95, rfl⟩
abbrev main_c_17 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x800000_S1x800000_0_0 : S2x800000.Slices ![0, 0] S1x800000
  shapeCasts_S1x800000_S800000 : S1x800000.ShapeCasts S800000
  concatenates_S800000_S100000_S900000_d0 : Shape.Concatenates [S800000, S100000] S900000 0
  slices_S2x800000_S1x800000_1_0 : S2x800000.Slices ![1, 0] S1x800000
  bcast_S_S100000 : S_.BroadcastsInDim S100000 (![] : Fin 0 → Fin S100000.rank)
  bcast_S_S900000 : S_.BroadcastsInDim S900000 (![] : Fin 0 → Fin S900000.rank)
  bcast_S900000_S900000x1_0 : S900000.BroadcastsInDim S900000x1 (![0] : Fin 1 → Fin S900000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S900000x1_S900000x128_0_1 : S900000x1.BroadcastsInDim S900000x128 (![0, 1] : Fin 2 → Fin S900000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S900000x1_S900000x64_0_1 : S900000x1.BroadcastsInDim S900000x64 (![0, 1] : Fin 2 → Fin S900000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  dot_S5000x128_S128x128_S5000x128_1_0_0_1_n_n_wf : DotDims.WF S5000x128 S128x128 S5000x128 [1] [0] [0] [1] [] []
  gather_S100000x128_S900000x1_S900000x128_1_0_n_n_0_1_1128_wf : GatherDims.WF S100000x128 S900000x1 S900000x128 [1] [0] [] [0] [] 1 ![1, 128]
  scatter_S100000x128_S900000x1_S900000x128_1_0_0_1_wf : ScatterDims.WF S100000x128 S900000x1 S900000x128 [1] [0] [0] 1
  dot_S5000x128_S128x64_S5000x64_1_0_0_1_n_n_wf : DotDims.WF S5000x128 S128x64 S5000x64 [1] [0] [0] [1] [] []
  gather_S100000x64_S900000x1_S900000x64_1_0_n_n_0_1_164_wf : GatherDims.WF S100000x64 S900000x1 S900000x64 [1] [0] [] [0] [] 1 ![1, 64]
  scatter_S100000x64_S900000x1_S900000x64_1_0_0_1_wf : ScatterDims.WF S100000x64 S900000x1 S900000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)

variable [Facts₀]

def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S900000x1_S900000x128_1_0_n_n_0_1_1128 : GatherDims S100000x128 S900000x1 S900000x128 where
  offsetDims := [1]
  collapsedSliceDims := [0]
  operandBatchingDims := []
  startIndicesBatchingDims := []
  startIndexMap := [0]
  indexVectorDim := 1
  sliceSizes := ![1, 128]
  wf := gather_S100000x128_S900000x1_S900000x128_1_0_n_n_0_1_1128_wf
def scatter_S100000x128_S900000x1_S900000x128_1_0_0_1 : ScatterDims S100000x128 S900000x1 S900000x128 where
  updateWindowDims := [1]
  insertedWindowDims := [0]
  scatterDimsToOperandDims := [0]
  indexVectorDim := 1
  wf := scatter_S100000x128_S900000x1_S900000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S900000x1_S900000x64_1_0_n_n_0_1_164 : GatherDims S100000x64 S900000x1 S900000x64 where
  offsetDims := [1]
  collapsedSliceDims := [0]
  operandBatchingDims := []
  startIndicesBatchingDims := []
  startIndexMap := [0]
  indexVectorDim := 1
  sliceSizes := ![1, 64]
  wf := gather_S100000x64_S900000x1_S900000x64_1_0_n_n_0_1_164_wf
def scatter_S100000x64_S900000x1_S900000x64_1_0_0_1 : ScatterDims S100000x64 S900000x1 S900000x64 where
  updateWindowDims := [1]
  insertedWindowDims := [0]
  scatterDimsToOperandDims := [0]
  indexVectorDim := 1
  wf := scatter_S100000x64_S900000x1_S900000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v53) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v54) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v55) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v73) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v74) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v75) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x800000 : Shape := ⟨2, ![1, 800000]⟩
abbrev S800000 : Shape := ⟨1, ![800000]⟩
abbrev S900000 : Shape := ⟨1, ![900000]⟩
abbrev S_ : Shape := ⟨0, ![]⟩
abbrev S900000x1 : Shape := ⟨2, ![900000, 1]⟩
abbrev S900000x128 : Shape := ⟨2, ![900000, 128]⟩
abbrev S1x128 : Shape := ⟨2, ![1, 128]⟩
abbrev S100000x64 : Shape := ⟨2, ![100000, 64]⟩
abbrev S900000x64 : Shape := ⟨2, ![900000, 64]⟩
abbrev S1x64 : Shape := ⟨2, ![1, 64]⟩

abbrev nBuf : Space → Nat
  | .hbm => 113
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x800000, .i32⟩
  | .hbm, ⟨8, _⟩ => ⟨S800000, .i32⟩
  | .hbm, ⟨9, _⟩ => ⟨S900000, .i32⟩
  | .hbm, ⟨10, _⟩ => ⟨S1x800000, .i32⟩
  | .hbm, ⟨11, _⟩ => ⟨S800000, .i32⟩
  | .hbm, ⟨12, _⟩ => ⟨S900000, .i32⟩
  | .hbm, ⟨13, _⟩ => ⟨S_, .f32⟩
  | .hbm, ⟨14, _⟩ => ⟨S100000, .f32⟩
  | .hbm, ⟨15, _⟩ => ⟨S_, .i32⟩
  | .hbm, ⟨16, _⟩ => ⟨S900000, .i32⟩
  | .hbm, ⟨17, _⟩ => ⟨S900000, .i1⟩
  | .hbm, ⟨18, _⟩ => ⟨S_, .i32⟩
  | .hbm, ⟨19, _⟩ => ⟨S900000, .i32⟩
  | .hbm, ⟨20, _⟩ => ⟨S900000, .i32⟩
  | .hbm, ⟨21, _⟩ => ⟨S900000, .i32⟩
  | .hbm, ⟨22, _⟩ => ⟨S900000x1, .i32⟩
  | .hbm, ⟨23, _⟩ => ⟨S_, .f32⟩
  | .hbm, ⟨24, _⟩ => ⟨S900000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .i1⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S900000, .i32⟩
  | .hbm, ⟨36, _⟩ => ⟨S900000, .i1⟩
  | .hbm, ⟨37, _⟩ => ⟨S_, .i32⟩
  | .hbm, ⟨38, _⟩ => ⟨S900000, .i32⟩
  | .hbm, ⟨39, _⟩ => ⟨S900000, .i32⟩
  | .hbm, ⟨40, _⟩ => ⟨S900000, .i32⟩
  | .hbm, ⟨41, _⟩ => ⟨S900000x1, .i32⟩
  | .hbm, ⟨42, _⟩ => ⟨S900000, .f32⟩
  | .hbm, ⟨43, _⟩ => ⟨S_, .i32⟩
  | .hbm, ⟨44, _⟩ => ⟨S900000, .i32⟩
  | .hbm, ⟨45, _⟩ => ⟨S900000, .i1⟩
  | .hbm, ⟨46, _⟩ => ⟨S_, .i32⟩
  | .hbm, ⟨47, _⟩ => ⟨S900000, .i32⟩
  | .hbm, ⟨48, _⟩ => ⟨S900000, .i32⟩
  | .hbm, ⟨49, _⟩ => ⟨S900000, .i32⟩
  | .hbm, ⟨50, _⟩ => ⟨S900000x1, .i32⟩
  | .hbm, ⟨51, _⟩ => ⟨S900000, .f32⟩
  | .hbm, ⟨52, _⟩ => ⟨S900000, .f32⟩
  | .hbm, ⟨53, _⟩ => ⟨S100000x128, .f32⟩
  | .hbm, ⟨54, _⟩ => ⟨S_, .i32⟩
  | .hbm, ⟨55, _⟩ => ⟨S900000, .i32⟩
  | .hbm, ⟨56, _⟩ => ⟨S900000, .i1⟩
  | .hbm, ⟨57, _⟩ => ⟨S_, .i32⟩
  | .hbm, ⟨58, _⟩ => ⟨S900000, .i32⟩
  | .hbm, ⟨59, _⟩ => ⟨S900000, .i32⟩
  | .hbm, ⟨60, _⟩ => ⟨S900000, .i32⟩
  | .hbm, ⟨61, _⟩ => ⟨S900000x1, .i32⟩
  | .hbm, ⟨62, _⟩ => ⟨S900000x128, .f32⟩
  | .hbm, ⟨63, _⟩ => ⟨S900000x1, .f32⟩
  | .hbm, ⟨64, _⟩ => ⟨S900000x128, .f32⟩
  | .hbm, ⟨65, _⟩ => ⟨S900000x128, .f32⟩
  | .hbm, ⟨66, _⟩ => ⟨S_, .f32⟩
  | .hbm, ⟨67, _⟩ => ⟨S100000x128, .f32⟩
  | .hbm, ⟨68, _⟩ => ⟨S_, .i32⟩
  | .hbm, ⟨69, _⟩ => ⟨S900000, .i32⟩
  | .hbm, ⟨70, _⟩ => ⟨S900000, .i1⟩
  | .hbm, ⟨71, _⟩ => ⟨S_, .i32⟩
  | .hbm, ⟨72, _⟩ => ⟨S900000, .i32⟩
  | .hbm, ⟨73, _⟩ => ⟨S900000, .i32⟩
  | .hbm, ⟨74, _⟩ => ⟨S900000, .i32⟩
  | .hbm, ⟨75, _⟩ => ⟨S900000x1, .i32⟩
  | .hbm, ⟨76, _⟩ => ⟨S100000x128, .f32⟩
  | .hbm, ⟨77, _⟩ => ⟨S1x128, .f32⟩
  | .hbm, ⟨78, _⟩ => ⟨S100000x128, .f32⟩
  | .hbm, ⟨79, _⟩ => ⟨S100000x128, .f32⟩
  | .hbm, ⟨80, _⟩ => ⟨S_, .f32⟩
  | .hbm, ⟨81, _⟩ => ⟨S100000x128, .f32⟩
  | .hbm, ⟨82, _⟩ => ⟨S100000x128, .f32⟩
  | .hbm, ⟨83, _⟩ => ⟨S100000x64, .f32⟩
  | .hbm, ⟨84, _⟩ => ⟨S_, .i32⟩
  | .hbm, ⟨85, _⟩ => ⟨S900000, .i32⟩
  | .hbm, ⟨86, _⟩ => ⟨S900000, .i1⟩
  | .hbm, ⟨87, _⟩ => ⟨S_, .i32⟩
  | .hbm, ⟨88, _⟩ => ⟨S900000, .i32⟩
  | .hbm, ⟨89, _⟩ => ⟨S900000, .i32⟩
  | .hbm, ⟨90, _⟩ => ⟨S900000, .i32⟩
  | .hbm, ⟨91, _⟩ => ⟨S900000x1, .i32⟩
  | .hbm, ⟨92, _⟩ => ⟨S900000x64, .f32⟩
  | .hbm, ⟨93, _⟩ => ⟨S900000x1, .f32⟩
  | .hbm, ⟨94, _⟩ => ⟨S900000x64, .f32⟩
  | .hbm, ⟨95, _⟩ => ⟨S900000x64, .f32⟩
  | .hbm, ⟨96, _⟩ => ⟨S_, .f32⟩
  | .hbm, ⟨97, _⟩ => ⟨S100000x64, .f32⟩
  | .hbm, ⟨98, _⟩ => ⟨S_, .i32⟩
  | .hbm, ⟨99, _⟩ => ⟨S900000, .i32⟩
  | .hbm, ⟨100, _⟩ => ⟨S900000, .i1⟩
  | .hbm, ⟨101, _⟩ => ⟨S_, .i32⟩
  | .hbm, ⟨102, _⟩ => ⟨S900000, .i32⟩
  | .hbm, ⟨103, _⟩ => ⟨S900000, .i32⟩
  | .hbm, ⟨104, _⟩ => ⟨S900000, .i32⟩
  | .hbm, ⟨105, _⟩ => ⟨S900000x1, .i32⟩
  | .hbm, ⟨106, _⟩ => ⟨S100000x64, .f32⟩
  | .hbm, ⟨107, _⟩ => ⟨S1x64, .f32⟩
  | .hbm, ⟨108, _⟩ => ⟨S100000x64, .f32⟩
  | .hbm, ⟨109, _⟩ => ⟨S100000x64, .f32⟩
  | .hbm, ⟨110, _⟩ => ⟨S_, .f32⟩
  | .hbm, ⟨111, _⟩ => ⟨S100000x64, .f32⟩
  | .hbm, ⟨112, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_c_5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_c_7 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_c_9 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_10 : Ref sig .tc := ⟨.hbm, 66, rfl⟩
abbrev main_v46 : Ref sig .tc := ⟨.hbm, 67, rfl⟩
abbrev main_c_11 : Ref sig .tc := ⟨.hbm, 68, rfl⟩
abbrev main_v47 : Ref sig .tc := ⟨.hbm, 69, rfl⟩
abbrev main_v48 : Ref sig .tc := ⟨.hbm, 70, rfl⟩
abbrev main_c_12 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_call1_cst : Ref sig .tc := ⟨.hbm, 80, rfl⟩
abbrev main_call1_v0 : Ref sig .tc := ⟨.hbm, 81, rfl⟩
abbrev main_v57 : Ref sig .tc := ⟨.hbm, 82, rfl⟩
abbrev main_v58 : Ref sig .tc := ⟨.hbm, 83, rfl⟩
abbrev main_c_13 : Ref sig .tc := ⟨.hbm, 84, rfl⟩
abbrev main_v59 : Ref sig .tc := ⟨.hbm, 85, rfl⟩
abbrev main_v60 : Ref sig .tc := ⟨.hbm, 86, rfl⟩
abbrev main_c_14 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_15 : Ref sig .tc := ⟨.hbm, 96, rfl⟩
abbrev main_v69 : Ref sig .tc := ⟨.hbm, 97, rfl⟩
abbrev main_c_16 : Ref sig .tc := ⟨.hbm, 98, rfl⟩
abbrev main_v70 : Ref sig .tc := ⟨.hbm, 99, rfl⟩
abbrev main_v71 : Ref sig .tc := ⟨.hbm, 100, rfl⟩
abbrev main_c_17 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_call2_cst : Ref sig .tc := ⟨.hbm, 110, rfl⟩
abbrev main_call2_v0 : Ref sig .tc := ⟨.hbm, 111, rfl⟩
abbrev main_v80 : Ref sig .tc := ⟨.hbm, 112, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S100000_S900000_d0 : Shape.Concatenates [S800000, S100000] S900000 0
  slices_S2x800000_S1x800000_1_0 : S2x800000.Slices ![1, 0] S1x800000
  bcast_S_S100000 : S_.BroadcastsInDim S100000 (![] : Fin 0 → Fin S100000.rank)
  bcast_S_S900000 : S_.BroadcastsInDim S900000 (![] : Fin 0 → Fin S900000.rank)
  bcast_S900000_S900000x1_0 : S900000.BroadcastsInDim S900000x1 (![0] : Fin 1 → Fin S900000x1.rank)
  bcast_S900000x1_S900000x128_0_1 : S900000x1.BroadcastsInDim S900000x128 (![0, 1] : Fin 2 → Fin S900000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S900000x1_S900000x64_0_1 : S900000x1.BroadcastsInDim S900000x64 (![0, 1] : Fin 2 → Fin S900000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  dot_S100000x128_S128x128_S100000x128_1_0_0_1_n_n_wf : DotDims.WF S100000x128 S128x128 S100000x128 [1] [0] [0] [1] [] []
  gather_S100000x128_S900000x1_S900000x128_1_0_n_n_0_1_1128_wf : GatherDims.WF S100000x128 S900000x1 S900000x128 [1] [0] [] [0] [] 1 ![1, 128]
  scatter_S100000x128_S900000x1_S900000x128_1_0_0_1_wf : ScatterDims.WF S100000x128 S900000x1 S900000x128 [1] [0] [0] 1
  dot_S100000x128_S128x64_S100000x64_1_0_0_1_n_n_wf : DotDims.WF S100000x128 S128x64 S100000x64 [1] [0] [0] [1] [] []
  gather_S100000x64_S900000x1_S900000x64_1_0_n_n_0_1_164_wf : GatherDims.WF S100000x64 S900000x1 S900000x64 [1] [0] [] [0] [] 1 ![1, 64]
  scatter_S100000x64_S900000x1_S900000x64_1_0_0_1_wf : ScatterDims.WF S100000x64 S900000x1 S900000x64 [1] [0] [0] 1

variable [Facts₀]

def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S900000x1_S900000x128_1_0_n_n_0_1_1128 : GatherDims S100000x128 S900000x1 S900000x128 where
  offsetDims := [1]
  collapsedSliceDims := [0]
  operandBatchingDims := []
  startIndicesBatchingDims := []
  startIndexMap := [0]
  indexVectorDim := 1
  sliceSizes := ![1, 128]
  wf := gather_S100000x128_S900000x1_S900000x128_1_0_n_n_0_1_1128_wf
def scatter_S100000x128_S900000x1_S900000x128_1_0_0_1 : ScatterDims S100000x128 S900000x1 S900000x128 where
  updateWindowDims := [1]
  insertedWindowDims := [0]
  scatterDimsToOperandDims := [0]
  indexVectorDim := 1
  wf := scatter_S100000x128_S900000x1_S900000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S900000x1_S900000x64_1_0_n_n_0_1_164 : GatherDims S100000x64 S900000x1 S900000x64 where
  offsetDims := [1]
  collapsedSliceDims := [0]
  operandBatchingDims := []
  startIndicesBatchingDims := []
  startIndexMap := [0]
  indexVectorDim := 1
  sliceSizes := ![1, 64]
  wf := gather_S100000x64_S900000x1_S900000x64_1_0_n_n_0_1_164_wf
def scatter_S100000x64_S900000x1_S900000x64_1_0_0_1 : ScatterDims S100000x64 S900000x1 S900000x64 where
  updateWindowDims := [1]
  insertedWindowDims := [0]
  scatterDimsToOperandDims := [0]
  indexVectorDim := 1
  wf := scatter_S100000x64_S900000x1_S900000x64_1_0_0_1_wf

class Facts : Prop extends Facts₀ where

variable [Facts]
-- ==== Proof.HostChains.lean ====
/-
  The host side of the two-layer graph convolution, read boundary by boundary. Between and before its three dense stages
  the program runs on whole arrays: from the edge list it builds the source and destination indices with one self loop per
  node appended, the degree of every node (a scatter-add of ones), its inverse square root where the degree is positive
  and zero elsewhere, and the symmetric normalisation of every edge, the product of the two gathered inverse roots; then,
  twice, the aggregation: gather the rows of a product at the source indices, scale row e by the normalisation of e, and
  scatter-add into a zero array at the destination indices. The reference runs the same operations on the same edge list.

  Here every buffer a later stretch reads is followed from the launch to the point where it is read: the contents at a
  boundary are the fold of the operations so far over the launch memory, a region changes only its own result array, and a
  stretch changes only what it writes. At each boundary the index vectors and the normalisation ARE the reference's own
  stages of the edge list (named, never opened again), each aggregate is the chain `agg128` / `agg64` of whatever the
  region before it left in its result array, and each bias is laid out as one row. The reference's two aggregates are the
  same chains of its own two matrix products (`ref_agg128`, `ref_agg64`). All of this holds whatever the float
  operations are: nothing here reads a float.
-/
import proofs.«138788_j39591008534759_1_alg».proof.Proof.Gen.KernelIdeal.Frame
import proofs.«138788_j39591008534759_1_alg».proof.Proof.RefRead
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Host

open Cert.KernelIdeal Cert.KernelIdeal.Gen
open Cert.ReferenceIdeal.ReadP (val_main_v3 val_main_v6 val_main_v17 val_main_v18 val_main_cst_3 val_main_v19 val_main_v34 val_main_v35 val_main_v53 val_main_v58 val_main_v76)

variable {F : FTy → Type} [FloatOps F]
variable (m : (ℓ : Loc nD τ sig) → Buf (Elt F) ℓ) (ρ : Dev nD → PrngReg)

/-- The edge list as launched. -/
abbrev edges (c : Dev nD) : Buf (Elt F) ((c.tc : Thread nD τ).loc main_arg1) := m ((c.tc : Thread nD τ).loc main_arg1)

/-! ## The first stretch: source and destination indices with the self loops appended, the degree's sign and its
    inverse square root -/

theorem W1_v3 (c : Dev nD) : W1 m ρ c (Proc.devRef .tc main_v3) = val_main_v3 (F := F) (edges m c) := by
  show StableHlo.after hostOps0 (W0 m ρ c) (Proc.devRef .tc main_v3) = _
  simp only [hostOps0]
  after_results
  unfold val_main_v3 Cert.ReferenceIdeal.ReadP.val_main_v2 Cert.ReferenceIdeal.ReadP.val_main_v1 Cert.ReferenceIdeal.ReadP.val_main_v0
  rfl

theorem W1_v6 (c : Dev nD) : W1 m ρ c (Proc.devRef .tc main_v6) = val_main_v6 (F := F) (edges m c) := by
  show StableHlo.after hostOps0 (W0 m ρ c) (Proc.devRef .tc main_v6) = _
  simp only [hostOps0]
  after_results
  unfold val_main_v6 Cert.ReferenceIdeal.ReadP.val_main_v5 Cert.ReferenceIdeal.ReadP.val_main_v4 Cert.ReferenceIdeal.ReadP.val_main_v0
  rfl

set_option maxHeartbeats 2000000 in
theorem W1_v17 (c : Dev nD) : W1 m ρ c (Proc.devRef .tc main_v17) = val_main_v17 (F := F) (edges m c) := by
  show StableHlo.after hostOps0 (W0 m ρ c) (Proc.devRef .tc main_v17) = _
  simp only [hostOps0]
  after_results_simp
  unfold val_main_v17 Cert.ReferenceIdeal.ReadP.val_main_v16 Cert.ReferenceIdeal.ReadP.val_main_cst_2 Cert.ReferenceIdeal.ReadP.val_main_v15 Cert.ReferenceIdeal.ReadP.val_main_v14 Cert.ReferenceIdeal.ReadP.val_main_cst_1 Cert.ReferenceIdeal.ReadP.val_main_v13 Cert.ReferenceIdeal.ReadP.val_main_v12 Cert.ReferenceIdeal.ReadP.val_main_v11 Cert.ReferenceIdeal.ReadP.val_main_v10 Cert.ReferenceIdeal.ReadP.val_main_c_0 Cert.ReferenceIdeal.ReadP.val_main_v9 Cert.ReferenceIdeal.ReadP.val_main_v8 Cert.ReferenceIdeal.ReadP.val_main_c Cert.ReferenceIdeal.ReadP.val_main_v7 Cert.ReferenceIdeal.ReadP.val_main_cst Cert.ReferenceIdeal.ReadP.val_main_v6 Cert.ReferenceIdeal.ReadP.val_main_v5 Cert.ReferenceIdeal.ReadP.val_main_v4 Cert.ReferenceIdeal.ReadP.val_main_v0
  rfl

set_option maxHeartbeats 2000000 in
theorem W1_v18 (c : Dev nD) : W1 m ρ c (Proc.devRef .tc main_v18) = val_main_v18 (F := F) (edges m c) := by
  show StableHlo.after hostOps0 (W0 m ρ c) (Proc.devRef .tc main_v18) = _
  simp only [hostOps0]
  after_results_simp
  unfold val_main_v18 Cert.ReferenceIdeal.ReadP.val_main_v15 Cert.ReferenceIdeal.ReadP.val_main_v14 Cert.ReferenceIdeal.ReadP.val_main_cst_1 Cert.ReferenceIdeal.ReadP.val_main_v13 Cert.ReferenceIdeal.ReadP.val_main_v12 Cert.ReferenceIdeal.ReadP.val_main_v11 Cert.ReferenceIdeal.ReadP.val_main_v10 Cert.ReferenceIdeal.ReadP.val_main_c_0 Cert.ReferenceIdeal.ReadP.val_main_v9 Cert.ReferenceIdeal.ReadP.val_main_v8 Cert.ReferenceIdeal.ReadP.val_main_c Cert.ReferenceIdeal.ReadP.val_main_v7 Cert.ReferenceIdeal.ReadP.val_main_cst Cert.ReferenceIdeal.ReadP.val_main_v6 Cert.ReferenceIdeal.ReadP.val_main_v5 Cert.ReferenceIdeal.ReadP.val_main_v4 Cert.ReferenceIdeal.ReadP.val_main_v0
  rfl

theorem W1_cst_3 (c : Dev nD) : W1 m ρ c (Proc.devRef .tc main_cst_3) = val_main_cst_3 (F := F) := by
  show StableHlo.after hostOps0 (W0 m ρ c) (Proc.devRef .tc main_cst_3) = _
  simp only [hostOps0]
  after_results
  rfl

theorem W1_arg0 (c : Dev nD) : W1 m ρ c (Proc.devRef .tc main_arg0) = m ((c.tc : Thread nD τ).loc main_arg0) := by
  show StableHlo.after hostOps0 (W0 m ρ c) (Proc.devRef .tc main_arg0) = _
  simp only [hostOps0]
  after_results_simp <;> rfl

theorem W1_arg2 (c : Dev nD) : W1 m ρ c (Proc.devRef .tc main_arg2) = m ((c.tc : Thread nD τ).loc main_arg2) := by
  show StableHlo.after hostOps0 (W0 m ρ c) (Proc.devRef .tc main_arg2) = _
  simp only [hostOps0]
  after_results_simp <;> rfl

theorem W1_arg3 (c : Dev nD) : W1 m ρ c (Proc.devRef .tc main_arg3) = m ((c.tc : Thread nD τ).loc main_arg3) := by
  show StableHlo.after hostOps0 (W0 m ρ c) (Proc.devRef .tc main_arg3) = _
  simp only [hostOps0]
  after_results_simp <;> rfl

theorem W1_arg4 (c : Dev nD) : W1 m ρ c (Proc.devRef .tc main_arg4) = m ((c.tc : Thread nD τ).loc main_arg4) := by
  show StableHlo.after hostOps0 (W0 m ρ c) (Proc.devRef .tc main_arg4) = _
  simp only [hostOps0]
  after_results_simp <;> rfl

theorem W1_arg5 (c : Dev nD) : W1 m ρ c (Proc.devRef .tc main_arg5) = m ((c.tc : Thread nD τ).loc main_arg5) := by
  show StableHlo.after hostOps0 (W0 m ρ c) (Proc.devRef .tc main_arg5) = _
  simp only [hostOps0]
  after_results_simp <;> rfl

/-! ## The second stretch: the inverse square root of the degree where the degree is positive, zero elsewhere -/

theorem W2_v19 (c : Dev nD) : W2 m ρ c (Proc.devRef .tc main_v19) = val_main_v19 (F := F) (edges m c) := by
  show StableHlo.after hostOps0_1 (W1 m ρ c) (Proc.devRef .tc main_v19) = _
  have e17 := W1_v17 m ρ c
  have e18 := W1_v18 m ρ c
  have ec := W1_cst_3 m ρ c
  generalize W1 m ρ c = V at e17 e18 ec ⊢
  simp only [hostOps0_1]
  after_results
  show select (V (Proc.devRef .tc main_v17)) (V (Proc.devRef .tc main_v18)) (broadcastInDim S100000 ![] bcast_S_S100000 (id (V (Proc.devRef .tc main_cst_3)))) = _
  rw [e17, e18, ec]
  unfold val_main_v19 Cert.ReferenceIdeal.ReadP.val_main_call0_v1 Cert.ReferenceIdeal.ReadP.val_main_call0_v0
  rfl

theorem W2_v3 (c : Dev nD) : W2 m ρ c (Proc.devRef .tc main_v3) = val_main_v3 (F := F) (edges m c) := by
  show StableHlo.after hostOps0_1 (W1 m ρ c) (Proc.devRef .tc main_v3) = _
  simp only [hostOps0_1]
  after_results_simp <;> exact W1_v3 m ρ c

theorem W2_v6 (c : Dev nD) : W2 m ρ c (Proc.devRef .tc main_v6) = val_main_v6 (F := F) (edges m c) := by
  show StableHlo.after hostOps0_1 (W1 m ρ c) (Proc.devRef .tc main_v6) = _
  simp only [hostOps0_1]
  after_results_simp <;> exact W1_v6 m ρ c

theorem W2_arg0 (c : Dev nD) : W2 m ρ c (Proc.devRef .tc main_arg0) = m ((c.tc : Thread nD τ).loc main_arg0) := by
  show StableHlo.after hostOps0_1 (W1 m ρ c) (Proc.devRef .tc main_arg0) = _
  simp only [hostOps0_1]
  after_results_simp <;> exact W1_arg0 m ρ c

theorem W2_arg2 (c : Dev nD) : W2 m ρ c (Proc.devRef .tc main_arg2) = m ((c.tc : Thread nD τ).loc main_arg2) := by
  show StableHlo.after hostOps0_1 (W1 m ρ c) (Proc.devRef .tc main_arg2) = _
  simp only [hostOps0_1]
  after_results_simp <;> exact W1_arg2 m ρ c

theorem W2_arg3 (c : Dev nD) : W2 m ρ c (Proc.devRef .tc main_arg3) = m ((c.tc : Thread nD τ).loc main_arg3) := by
  show StableHlo.after hostOps0_1 (W1 m ρ c) (Proc.devRef .tc main_arg3) = _
  simp only [hostOps0_1]
  after_results_simp <;> exact W1_arg3 m ρ c

theorem W2_arg4 (c : Dev nD) : W2 m ρ c (Proc.devRef .tc main_arg4) = m ((c.tc : Thread nD τ).loc main_arg4) := by
  show StableHlo.after hostOps0_1 (W1 m ρ c) (Proc.devRef .tc main_arg4) = _
  simp only [hostOps0_1]
  after_results_simp <;> exact W1_arg4 m ρ c

theorem W2_arg5 (c : Dev nD) : W2 m ρ c (Proc.devRef .tc main_arg5) = m ((c.tc : Thread nD τ).loc main_arg5) := by
  show StableHlo.after hostOps0_1 (W1 m ρ c) (Proc.devRef .tc main_arg5) = _
  simp only [hostOps0_1]
  after_results_simp <;> exact W1_arg5 m ρ c

/-! ## The third stretch: the symmetric normalisation of every edge, the product of the two gathered inverse roots -/

theorem W3_v34 (c : Dev nD) : W3 m ρ c (Proc.devRef .tc main_v34) = val_main_v34 (F := F) (edges m c) := by
  show StableHlo.after hostOps0_2 (W2 m ρ c) (Proc.devRef .tc main_v34) = _
  have e19 := W2_v19 m ρ c
  have e3 := W2_v3 m ρ c
  have e6 := W2_v6 m ρ c
  generalize W2 m ρ c = V at e19 e3 e6 ⊢
  simp only [hostOps0_2]
  after_results_simp
  rw [e19, e3, e6]
  unfold val_main_v34 Cert.ReferenceIdeal.ReadP.val_main_v33 Cert.ReferenceIdeal.ReadP.val_main_v32 Cert.ReferenceIdeal.ReadP.val_main_v31 Cert.ReferenceIdeal.ReadP.val_main_v30 Cert.ReferenceIdeal.ReadP.val_main_v29 Cert.ReferenceIdeal.ReadP.val_main_c_7 Cert.ReferenceIdeal.ReadP.val_main_v28 Cert.ReferenceIdeal.ReadP.val_main_v27 Cert.ReferenceIdeal.ReadP.val_main_c_6 Cert.ReferenceIdeal.ReadP.val_main_v26 Cert.ReferenceIdeal.ReadP.val_main_v25 Cert.ReferenceIdeal.ReadP.val_main_v24 Cert.ReferenceIdeal.ReadP.val_main_v23 Cert.ReferenceIdeal.ReadP.val_main_v22 Cert.ReferenceIdeal.ReadP.val_main_c_5 Cert.ReferenceIdeal.ReadP.val_main_v21 Cert.ReferenceIdeal.ReadP.val_main_v20 Cert.ReferenceIdeal.ReadP.val_main_c_4
  rfl

theorem W3_v3 (c : Dev nD) : W3 m ρ c (Proc.devRef .tc main_v3) = val_main_v3 (F := F) (edges m c) := by
  show StableHlo.after hostOps0_2 (W2 m ρ c) (Proc.devRef .tc main_v3) = _
  simp only [hostOps0_2]
  after_results_simp <;> exact W2_v3 m ρ c

theorem W3_v6 (c : Dev nD) : W3 m ρ c (Proc.devRef .tc main_v6) = val_main_v6 (F := F) (edges m c) := by
  show StableHlo.after hostOps0_2 (W2 m ρ c) (Proc.devRef .tc main_v6) = _
  simp only [hostOps0_2]
  after_results_simp <;> exact W2_v6 m ρ c

theorem W3_arg0 (c : Dev nD) : W3 m ρ c (Proc.devRef .tc main_arg0) = m ((c.tc : Thread nD τ).loc main_arg0) := by
  show StableHlo.after hostOps0_2 (W2 m ρ c) (Proc.devRef .tc main_arg0) = _
  simp only [hostOps0_2]
  after_results_simp <;> exact W2_arg0 m ρ c

theorem W3_arg2 (c : Dev nD) : W3 m ρ c (Proc.devRef .tc main_arg2) = m ((c.tc : Thread nD τ).loc main_arg2) := by
  show StableHlo.after hostOps0_2 (W2 m ρ c) (Proc.devRef .tc main_arg2) = _
  simp only [hostOps0_2]
  after_results_simp <;> exact W2_arg2 m ρ c

theorem W3_arg3 (c : Dev nD) : W3 m ρ c (Proc.devRef .tc main_arg3) = m ((c.tc : Thread nD τ).loc main_arg3) := by
  show StableHlo.after hostOps0_2 (W2 m ρ c) (Proc.devRef .tc main_arg3) = _
  simp only [hostOps0_2]
  after_results_simp <;> exact W2_arg3 m ρ c

theorem W3_arg4 (c : Dev nD) : W3 m ρ c (Proc.devRef .tc main_arg4) = m ((c.tc : Thread nD τ).loc main_arg4) := by
  show StableHlo.after hostOps0_2 (W2 m ρ c) (Proc.devRef .tc main_arg4) = _
  simp only [hostOps0_2]
  after_results_simp <;> exact W2_arg4 m ρ c

theorem W3_arg5 (c : Dev nD) : W3 m ρ c (Proc.devRef .tc main_arg5) = m ((c.tc : Thread nD τ).loc main_arg5) := by
  show StableHlo.after hostOps0_2 (W2 m ρ c) (Proc.devRef .tc main_arg5) = _
  simp only [hostOps0_2]
  after_results_simp <;> exact W2_arg5 m ρ c

/-! ## The aggregation, named once: both programs run it twice, at widths 128 and 64 -/

/-- One neighbourhood aggregation of width 128: gather the rows of `xw` at the source indices (a negative index wrapped
    around by adding 100000), scale row e by the normalisation `n[e]`, and scatter-add the rows into a zero array at the
    destination indices (wrapped the same way). -/
def agg128 (xw : (⟨S100000x128, .f32⟩ : BufTy).Contents (Elt F)) (s d : (⟨S900000, .i32⟩ : BufTy).Contents (Elt F)) (n : (⟨S900000, .f32⟩ : BufTy).Contents (Elt F)) : (⟨S100000x128, .f32⟩ : BufTy).Contents (Elt F) :=
  Host.scatterAdd scatter_S100000x128_S900000x1_S900000x128_1_0_0_1
    (broadcastInDim S100000x128 ![] bcast_S_S100000x128 (constant (F := F) S_ .f32 0x00000000#32))
    (broadcastInDim S900000x1 ![0] bcast_S900000_S900000x1_0 (select (cmpi .slt d (broadcastInDim S900000 ![] bcast_S_S900000 (constantI S_ 32 0#32))) (addi d (broadcastInDim S900000 ![] bcast_S_S900000 (constantI S_ 32 100000#32))) d))
    (mulf (Host.gather gather_S100000x128_S900000x1_S900000x128_1_0_n_n_0_1_1128 xw (broadcastInDim S900000x1 ![0] bcast_S900000_S900000x1_0 (select (cmpi .slt s (broadcastInDim S900000 ![] bcast_S_S900000 (constantI S_ 32 0#32))) (addi s (broadcastInDim S900000 ![] bcast_S_S900000 (constantI S_ 32 100000#32))) s)))
      (broadcastInDim S900000x128 ![0, 1] bcast_S900000x1_S900000x128_0_1 (broadcastInDim S900000x1 ![0] bcast_S900000_S900000x1_0 n)))

/-- One neighbourhood aggregation of width 64: gather the rows of `xw` at the source indices (a negative index wrapped
    around by adding 100000), scale row e by the normalisation `n[e]`, and scatter-add the rows into a zero array at the
    destination indices (wrapped the same way). -/
def agg64 (xw : (⟨S100000x64, .f32⟩ : BufTy).Contents (Elt F)) (s d : (⟨S900000, .i32⟩ : BufTy).Contents (Elt F)) (n : (⟨S900000, .f32⟩ : BufTy).Contents (Elt F)) : (⟨S100000x64, .f32⟩ : BufTy).Contents (Elt F) :=
  Host.scatterAdd scatter_S100000x64_S900000x1_S900000x64_1_0_0_1
    (broadcastInDim S100000x64 ![] bcast_S_S100000x64 (constant (F := F) S_ .f32 0x00000000#32))
    (broadcastInDim S900000x1 ![0] bcast_S900000_S900000x1_0 (select (cmpi .slt d (broadcastInDim S900000 ![] bcast_S_S900000 (constantI S_ 32 0#32))) (addi d (broadcastInDim S900000 ![] bcast_S_S900000 (constantI S_ 32 100000#32))) d))
    (mulf (Host.gather gather_S100000x64_S900000x1_S900000x64_1_0_n_n_0_1_164 xw (broadcastInDim S900000x1 ![0] bcast_S900000_S900000x1_0 (select (cmpi .slt s (broadcastInDim S900000 ![] bcast_S_S900000 (constantI S_ 32 0#32))) (addi s (broadcastInDim S900000 ![] bcast_S_S900000 (constantI S_ 32 100000#32))) s)))
      (broadcastInDim S900000x64 ![0, 1] bcast_S900000x1_S900000x64_0_1 (broadcastInDim S900000x1 ![0] bcast_S900000_S900000x1_0 n)))

/-- A bias vector laid out as one row. -/
def row128 (b : (⟨S128, .f32⟩ : BufTy).Contents (Elt F)) : (⟨S1x128, .f32⟩ : BufTy).Contents (Elt F) := shapeCast S1x128 b shapeCasts_S128_S1x128
def row64 (b : (⟨S64, .f32⟩ : BufTy).Contents (Elt F)) : (⟨S1x64, .f32⟩ : BufTy).Contents (Elt F) := shapeCast S1x64 b shapeCasts_S64_S1x64

/-! ## Across the first region: it writes only its own result array -/

theorem W4_v3 (c : Dev nD) : W4 m ρ c (Proc.devRef .tc main_v3) = val_main_v3 (F := F) (edges m c) :=
  (W4_of_ne m ρ c main_v3 (by decide)).trans (W3_v3 m ρ c)

theorem W4_v6 (c : Dev nD) : W4 m ρ c (Proc.devRef .tc main_v6) = val_main_v6 (F := F) (edges m c) :=
  (W4_of_ne m ρ c main_v6 (by decide)).trans (W3_v6 m ρ c)

theorem W4_v34 (c : Dev nD) : W4 m ρ c (Proc.devRef .tc main_v34) = val_main_v34 (F := F) (edges m c) :=
  (W4_of_ne m ρ c main_v34 (by decide)).trans (W3_v34 m ρ c)

theorem W4_arg3 (c : Dev nD) : W4 m ρ c (Proc.devRef .tc main_arg3) = m ((c.tc : Thread nD τ).loc main_arg3) :=
  (W4_of_ne m ρ c main_arg3 (by decide)).trans (W3_arg3 m ρ c)

theorem W4_arg4 (c : Dev nD) : W4 m ρ c (Proc.devRef .tc main_arg4) = m ((c.tc : Thread nD τ).loc main_arg4) :=
  (W4_of_ne m ρ c main_arg4 (by decide)).trans (W3_arg4 m ρ c)

theorem W4_arg5 (c : Dev nD) : W4 m ρ c (Proc.devRef .tc main_arg5) = m ((c.tc : Thread nD τ).loc main_arg5) :=
  (W4_of_ne m ρ c main_arg5 (by decide)).trans (W3_arg5 m ρ c)

/-! ## The fourth stretch: the first aggregation, of whatever the first region left in its result array; the first bias as a row -/

theorem W5_v53 (c : Dev nD) : W5 m ρ c (Proc.devRef .tc main_v53) = agg128 (W4 m ρ c (Proc.devRef .tc main_v35)) (val_main_v3 (F := F) (edges m c)) (val_main_v6 (F := F) (edges m c)) (val_main_v34 (F := F) (edges m c)) := by
  show StableHlo.after hostOps1 (W4 m ρ c) (Proc.devRef .tc main_v53) = _
  have e3 := W4_v3 m ρ c
  have e6 := W4_v6 m ρ c
  have e34 := W4_v34 m ρ c
  generalize W4 m ρ c = V at e3 e6 e34 ⊢
  simp only [hostOps1]
  after_results_simp
  rw [e3, e6, e34]
  unfold agg128
  rfl

theorem W5_v54 (c : Dev nD) : W5 m ρ c (Proc.devRef .tc main_v54) = row128 (m ((c.tc : Thread nD τ).loc main_arg3)) := by
  show StableHlo.after hostOps1 (W4 m ρ c) (Proc.devRef .tc main_v54) = _
  have e := W4_arg3 m ρ c
  generalize W4 m ρ c = V at e ⊢
  simp only [hostOps1]
  after_results_simp
  rw [e]
  rfl

theorem W5_v3 (c : Dev nD) : W5 m ρ c (Proc.devRef .tc main_v3) = val_main_v3 (F := F) (edges m c) := by
  show StableHlo.after hostOps1 (W4 m ρ c) (Proc.devRef .tc main_v3) = _
  simp only [hostOps1]
  after_results_simp <;> exact W4_v3 m ρ c

theorem W5_v6 (c : Dev nD) : W5 m ρ c (Proc.devRef .tc main_v6) = val_main_v6 (F := F) (edges m c) := by
  show StableHlo.after hostOps1 (W4 m ρ c) (Proc.devRef .tc main_v6) = _
  simp only [hostOps1]
  after_results_simp <;> exact W4_v6 m ρ c

theorem W5_v34 (c : Dev nD) : W5 m ρ c (Proc.devRef .tc main_v34) = val_main_v34 (F := F) (edges m c) := by
  show StableHlo.after hostOps1 (W4 m ρ c) (Proc.devRef .tc main_v34) = _
  simp only [hostOps1]
  after_results_simp <;> exact W4_v34 m ρ c

theorem W5_arg4 (c : Dev nD) : W5 m ρ c (Proc.devRef .tc main_arg4) = m ((c.tc : Thread nD τ).loc main_arg4) := by
  show StableHlo.after hostOps1 (W4 m ρ c) (Proc.devRef .tc main_arg4) = _
  simp only [hostOps1]
  after_results_simp <;> exact W4_arg4 m ρ c

theorem W5_arg5 (c : Dev nD) : W5 m ρ c (Proc.devRef .tc main_arg5) = m ((c.tc : Thread nD τ).loc main_arg5) := by
  show StableHlo.after hostOps1 (W4 m ρ c) (Proc.devRef .tc main_arg5) = _
  simp only [hostOps1]
  after_results_simp <;> exact W4_arg5 m ρ c

/-! ## Across the second region -/

theorem W6_v3 (c : Dev nD) : W6 m ρ c (Proc.devRef .tc main_v3) = val_main_v3 (F := F) (edges m c) :=
  (W6_of_ne m ρ c main_v3 (by decide)).trans (W5_v3 m ρ c)

theorem W6_v6 (c : Dev nD) : W6 m ρ c (Proc.devRef .tc main_v6) = val_main_v6 (F := F) (edges m c) :=
  (W6_of_ne m ρ c main_v6 (by decide)).trans (W5_v6 m ρ c)

theorem W6_v34 (c : Dev nD) : W6 m ρ c (Proc.devRef .tc main_v34) = val_main_v34 (F := F) (edges m c) :=
  (W6_of_ne m ρ c main_v34 (by decide)).trans (W5_v34 m ρ c)

theorem W6_arg5 (c : Dev nD) : W6 m ρ c (Proc.devRef .tc main_arg5) = m ((c.tc : Thread nD τ).loc main_arg5) :=
  (W6_of_ne m ρ c main_arg5 (by decide)).trans (W5_arg5 m ρ c)

/-! ## The fifth stretch: the second aggregation, of whatever the second region left in its result array; the second bias as a row -/

theorem W7_v73 (c : Dev nD) : W7 m ρ c (Proc.devRef .tc main_v73) = agg64 (W6 m ρ c (Proc.devRef .tc main_v55)) (val_main_v3 (F := F) (edges m c)) (val_main_v6 (F := F) (edges m c)) (val_main_v34 (F := F) (edges m c)) := by
  show StableHlo.after hostOps2 (W6 m ρ c) (Proc.devRef .tc main_v73) = _
  have e3 := W6_v3 m ρ c
  have e6 := W6_v6 m ρ c
  have e34 := W6_v34 m ρ c
  generalize W6 m ρ c = V at e3 e6 e34 ⊢
  simp only [hostOps2]
  after_results_simp
  rw [e3, e6, e34]
  unfold agg64
  rfl

theorem W7_v74 (c : Dev nD) : W7 m ρ c (Proc.devRef .tc main_v74) = row64 (m ((c.tc : Thread nD τ).loc main_arg5)) := by
  show StableHlo.after hostOps2 (W6 m ρ c) (Proc.devRef .tc main_v74) = _
  have e := W6_arg5 m ρ c
  generalize W6 m ρ c = V at e ⊢
  simp only [hostOps2]
  after_results_simp
  rw [e]
  rfl

/-! ## The reference's two aggregates are the same chain, of its own two products -/

theorem ref_agg128 (x0 : (⟨Cert.ReferenceIdeal.S100000x128, .f32⟩ : BufTy).Contents (Elt F)) (x1 : (⟨Cert.ReferenceIdeal.S2x800000, .i32⟩ : BufTy).Contents (Elt F))
    (x2 : (⟨Cert.ReferenceIdeal.S128x128, .f32⟩ : BufTy).Contents (Elt F)) :
    val_main_v53 (F := F) x0 x1 x2 = agg128 (val_main_v35 (F := F) x0 x2) (val_main_v3 (F := F) x1) (val_main_v6 (F := F) x1) (val_main_v34 (F := F) x1) := by
  unfold val_main_v53 Cert.ReferenceIdeal.ReadP.val_main_v46 Cert.ReferenceIdeal.ReadP.val_main_cst_10 Cert.ReferenceIdeal.ReadP.val_main_v52 Cert.ReferenceIdeal.ReadP.val_main_v51 Cert.ReferenceIdeal.ReadP.val_main_v50 Cert.ReferenceIdeal.ReadP.val_main_v49 Cert.ReferenceIdeal.ReadP.val_main_c_12 Cert.ReferenceIdeal.ReadP.val_main_v48 Cert.ReferenceIdeal.ReadP.val_main_v47 Cert.ReferenceIdeal.ReadP.val_main_c_11 Cert.ReferenceIdeal.ReadP.val_main_v45 Cert.ReferenceIdeal.ReadP.val_main_v42 Cert.ReferenceIdeal.ReadP.val_main_v41 Cert.ReferenceIdeal.ReadP.val_main_v40 Cert.ReferenceIdeal.ReadP.val_main_v39 Cert.ReferenceIdeal.ReadP.val_main_v38 Cert.ReferenceIdeal.ReadP.val_main_c_9 Cert.ReferenceIdeal.ReadP.val_main_v37 Cert.ReferenceIdeal.ReadP.val_main_v36 Cert.ReferenceIdeal.ReadP.val_main_c_8 Cert.ReferenceIdeal.ReadP.val_main_v44 Cert.ReferenceIdeal.ReadP.val_main_v43 agg128
  rfl

theorem ref_agg64 (x0 : (⟨Cert.ReferenceIdeal.S100000x128, .f32⟩ : BufTy).Contents (Elt F)) (x1 : (⟨Cert.ReferenceIdeal.S2x800000, .i32⟩ : BufTy).Contents (Elt F))
    (x2 : (⟨Cert.ReferenceIdeal.S128x128, .f32⟩ : BufTy).Contents (Elt F)) (x3 : (⟨Cert.ReferenceIdeal.S128, .f32⟩ : BufTy).Contents (Elt F))
    (x4 : (⟨Cert.ReferenceIdeal.S128x64, .f32⟩ : BufTy).Contents (Elt F)) :
    val_main_v76 (F := F) x0 x1 x2 x3 x4 = agg64 (val_main_v58 (F := F) x0 x1 x2 x3 x4) (val_main_v3 (F := F) x1) (val_main_v6 (F := F) x1) (val_main_v34 (F := F) x1) := by
  unfold val_main_v76 Cert.ReferenceIdeal.ReadP.val_main_v69 Cert.ReferenceIdeal.ReadP.val_main_cst_15 Cert.ReferenceIdeal.ReadP.val_main_v75 Cert.ReferenceIdeal.ReadP.val_main_v74 Cert.ReferenceIdeal.ReadP.val_main_v73 Cert.ReferenceIdeal.ReadP.val_main_v72 Cert.ReferenceIdeal.ReadP.val_main_c_17 Cert.ReferenceIdeal.ReadP.val_main_v71 Cert.ReferenceIdeal.ReadP.val_main_v70 Cert.ReferenceIdeal.ReadP.val_main_c_16 Cert.ReferenceIdeal.ReadP.val_main_v68 Cert.ReferenceIdeal.ReadP.val_main_v65 Cert.ReferenceIdeal.ReadP.val_main_v64 Cert.ReferenceIdeal.ReadP.val_main_v63 Cert.ReferenceIdeal.ReadP.val_main_v62 Cert.ReferenceIdeal.ReadP.val_main_v61 Cert.ReferenceIdeal.ReadP.val_main_c_14 Cert.ReferenceIdeal.ReadP.val_main_v60 Cert.ReferenceIdeal.ReadP.val_main_v59 Cert.ReferenceIdeal.ReadP.val_main_c_13 Cert.ReferenceIdeal.ReadP.val_main_v67 Cert.ReferenceIdeal.ReadP.val_main_v66 agg64
  rfl

end Cert.KernelIdeal.Host

end
-- ==== Proof.Spec.lean ====
/-
  The three dense stages of the two-layer graph convolution, each as ONE function of whole arrays, entry by entry, on
  the extended reals. Between them both programs run the same neighbourhood aggregation on the host (a row gather, a
  scaling by the symmetric normalisation, a scatter-add into the destination rows); only these three stages are computed
  differently — block by block over 20 row blocks of 5000 nodes on one side, by one whole-array operation on the other —
  and these functions are what both computations are, entry by entry:

    project1 x w     (r, j) ↦ Σ_k x[r, k] · w[k, j]                                (x · W1)
    hidden a b       (r, k) ↦ max (a[r, k] + b[0, k]) 0                            (relu of the aggregate plus the bias row)
    project2 a b w   (r, j) ↦ Σ_k max (a[r, k] + b[0, k]) 0 · w[k, j]              (relu(a + b) · W2)
    output a b       (r, j) ↦ max (a[r, j] + b[0, j]) 0                            (relu of the aggregate plus the bias row)

  A sum over k ∈ Fin 128 in one fixed order on both sides, so no law of the extended reals beyond reading the operations
  at an entry is needed, and the inputs' finiteness is never used. The zero the maximum is taken against is kept as the
  f32 word of all zero bits: the same word on both sides.
-/
import Idealize.ShloMosaic.PureOps.Ideal
import Idealize.ShloMosaic.Lib.ValueIdx

noncomputable section

open scoped BigOperators
open Idealize.ShloMosaic Idealize.ShloMosaic.ValueIdx

namespace Cert.Gcn

/-- Node features of width 128 and 64, the two weight matrices, and a bias as a one-row matrix. -/
abbrev Nodes128 : Shape := ⟨2, ![100000, 128]⟩
abbrev Nodes64 : Shape := ⟨2, ![100000, 64]⟩
abbrev W128x128 : Shape := ⟨2, ![128, 128]⟩
abbrev W128x64 : Shape := ⟨2, ![128, 64]⟩
abbrev Row128 : Shape := ⟨2, ![1, 128]⟩
abbrev Row64 : Shape := ⟨2, ![1, 64]⟩

/-- The zero of the rectifier: the f32 word of all zero bits, kept as a word. -/
abbrev zeroWord : Ideal .f32 := Ideal.ofBits .f32 0x00000000#32

/-- Entry (r, j) of `x · w`: the sum over k of x[r, k] · w[k, j]. -/
def project1 (x : FVec Ideal Nodes128 .f32) (w : FVec Ideal W128x128 .f32) : FVec Ideal Nodes128 .f32 :=
  fun i => ∑ k : Fin 128, x (ix2 (⟨(i 0).val, (i 0).isLt⟩ : Fin 100000) k) * w (ix2 k (⟨(i 1).val, (i 1).isLt⟩ : Fin 128))

/-- Entry (r, k) of the hidden layer: the aggregate plus the bias row, rectified. -/
def hidden (a : FVec Ideal Nodes128 .f32) (b : FVec Ideal Row128 .f32) : FVec Ideal Nodes128 .f32 :=
  fun i => max (a i + b (ix2 (0 : Fin 1) (⟨(i 1).val, (i 1).isLt⟩ : Fin 128))) zeroWord

/-- Entry (r, j) of `hidden a b · w`: the sum over k of the hidden layer's entry (r, k) times w[k, j]. -/
def project2 (a : FVec Ideal Nodes128 .f32) (b : FVec Ideal Row128 .f32) (w : FVec Ideal W128x64 .f32) : FVec Ideal Nodes64 .f32 :=
  fun i => ∑ k : Fin 128, hidden a b (ix2 (⟨(i 0).val, (i 0).isLt⟩ : Fin 100000) k) * w (ix2 k (⟨(i 1).val, (i 1).isLt⟩ : Fin 64))

/-- Entry (r, j) of the result: the second aggregate plus the bias row, rectified. -/
def output (a : FVec Ideal Nodes64 .f32) (b : FVec Ideal Row64 .f32) : FVec Ideal Nodes64 .f32 :=
  fun i => max (a i + b (ix2 (0 : Fin 1) (⟨(i 1).val, (i 1).isLt⟩ : Fin 64))) zeroWord

end Cert.Gcn

end
-- ==== Proof.FirstProduct.lean ====
/-
  The first stage, x · W₁, computed 5000 rows at a time. The grid has 20 points; point t stages rows 5000·t … 5000·t + 4999
  of the features and the whole 128 × 128 weight, multiplies the two blocks into a zero accumulator and writes the product
  back as rows 5000·t … 5000·t + 4999 of the result. On the extended reals a change of float format is the identity and a
  block product into zero is the plain sum over the contracted axis, so entry (p, q) of point t's block is
  Σ_k x[5000·t + p, k] · W₁[k, q]: entry (5000·t + p, q) of `project1 x W₁`. The 20 blocks tile the 100000 rows (row r lies in
  block r / 5000), so after the region the whole result array is `project1` of the two arrays the region found.
  Stated at any contents `V` of the buffers at the region's entry.
-/
import proofs.«138788_j39591008534759_1_alg».proof.Proof.Gen.KernelIdeal.Frame
import proofs.«138788_j39591008534759_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.FirstProduct

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-! The block product's operand indices at output entry i and contraction index q: row i₀ and column q of the left
    block, row q and column i₁ of the right one. -/

theorem lhs_blk_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_blk_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_blk_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_blk_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The body's stored value at entry (p, q) of its block: the sum over k of the row block's entry (p, k) times the weight's
    entry (k, q) — the block product into a zero accumulator, the change of float format the identity on the extended reals. -/
theorem pay_apply (x0 : Vec Ideal S5000x128 .f32) (x1 : Vec Ideal S128x128 .f32) (p : Fin 5000) (q : Fin 128) :
    (k0_pay1 (F := Ideal) x0 x1 : FVec Ideal S5000x128 .f32) (ix2 p q) = ∑ k : Fin 128, x0 (ix2 p k) * x1 (ix2 k q) := by
  unfold k0_pay1
  show FloatOps.matmul dot_S5000x128_S128x128_S5000x128_1_0_0_1_n_n none (truncf (F := Ideal) .bf16 x0 bitsLt_bf16_f32) (truncf (F := Ideal) .bf16 x1 bitsLt_bf16_f32) (constant (F := Ideal) S5000x128 .f32 0x00000000#32) (ix2 p q) = _
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_blk_0 _ _
    | ⟨1, _⟩ => exact (lhs_blk_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_blk_0 _ _).trans hk
    | ⟨1, _⟩ => exact rhs_blk_1 _ _)
  rw [el, er]
  rfl

/-- One entry of one block against one entry of the whole arrays: if row y₀ of the staged row block is row i₀ of the
    features, the staged weight is the weight, and y and i lie in the same column, the body's value at y is `project1` at i. -/
theorem point_eq (a : FVec Ideal Cert.Gcn.Nodes128 .f32) (w : FVec Ideal Cert.Gcn.W128x128 .f32)
    (x0 : Vec Ideal S5000x128 .f32) (x1 : Vec Ideal S128x128 .f32) (y : S5000x128.Idx) (i : Cert.Gcn.Nodes128.Idx)
    (h0 : ∀ k : Fin 128, x0 (ix2 (⟨(y 0).val, (y 0).isLt⟩ : Fin 5000) k) = a (ix2 (⟨(i 0).val, (i 0).isLt⟩ : Fin 100000) k))
    (h1 : ∀ k q : Fin 128, x1 (ix2 k q) = w (ix2 k q)) (hq : (i 1).val = (y 1).val) :
    (k0_pay1 (F := Ideal) x0 x1 : FVec Ideal S5000x128 .f32) y = Cert.Gcn.project1 a w i := by
  obtain ⟨p, q, rfl⟩ : ∃ (p : Fin 5000) (q : Fin 128), y = ix2 p q := ⟨y 0, y 1, eq_ix2 y⟩
  rw [pay_apply]
  unfold Cert.Gcn.project1
  have e : (⟨(i 1).val, (i 1).isLt⟩ : Fin 128) = q := Fin.ext hq
  rw [e]
  refine Finset.sum_congr rfl fun k _ => ?_
  rw [h1]
  exact congrArg (· * w (ix2 k q)) (h0 k)

/-- The printed index maps over the 20 grid points: the row-blocked windows sit at block (t, 0), the weight at (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of `project1` of the arrays the region finds. -/
theorem flushed_eq (c : Dev nD) (t : Fin cfg0.N) :
    (dat0 V c).flushed 2 t = ((cfg0.win 2).blk t).view.read (Elt Ideal) (Cert.Gcn.project1 (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := idx_facts t
  funext j
  show (k0_pay1 (F := Ideal) (iblk0 V c 0 t) (iblk0 V c 1 t) : FVec Ideal S5000x128 .f32) ((win0 2).xinj (grid0.coords t) j)
    = Cert.Gcn.project1 (V c main_arg0) (V c main_arg2) (((cfg0.win 2).blk t).view.emb j)
  refine point_eq (V c main_arg0) (V c main_arg2) (iblk0 V c 0 t) (iblk0 V c 1 t) ((win0 2).xinj (grid0.coords t) j) (((cfg0.win 2).blk t).view.emb j) ?_ ?_ ?_
  · intro k
    show V c main_arg0 (((cfg0.win 0).blk t).view.emb (ix2 (⟨(j 0).val, _⟩ : Fin 5000) k)) = V c main_arg0 (ix2 (⟨((((cfg0.win 2).blk t).view.emb j) 0).val, _⟩ : Fin 100000) k)
    refine congrArg (V c main_arg0) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  · intro k q
    show V c main_arg2 (((cfg0.win 1).blk t).view.emb (ix2 k q)) = V c main_arg2 (ix2 k q)
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 128 + 1 * q.val = q.val; omega
  · show win0_2.index t (1 : Fin 2) * 128 + 1 * (j 1).val = (j 1).val
    omega

/-- An index of the product array lies in point t's block iff each coordinate lies in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v35).slice (win0_2.rect t)).set ↔ _
  rw [View.set_slice_whole, Rect.mem_set_unit]
  exact Iff.rfl

/-- Every index of the product array lies in the block of the point its row falls in: row r in block r / 5000. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  refine ⟨⟨(i 0).val / 5000, by rw [show cfg0.N = 20 from N_0]; omega⟩, flush0_2 _, ?_⟩
  rw [mem_blk]
  obtain ⟨-, -, -, -, e4, e5⟩ := idx_facts ⟨(i 0).val / 5000, by rw [show cfg0.N = 20 from N_0]; omega⟩
  intro a
  match a with
  | ⟨0, _⟩ => show win0_2.index _ (0 : Fin 2) * 5000 ≤ (i 0).val ∧ (i 0).val < win0_2.index _ (0 : Fin 2) * 5000 + 5000; rw [e4]; show (i 0).val / 5000 * 5000 ≤ (i 0).val ∧ (i 0).val < (i 0).val / 5000 * 5000 + 5000; omega
  | ⟨1, _⟩ => show win0_2.index _ (1 : Fin 2) * 128 ≤ (i 1).val ∧ (i 1).val < win0_2.index _ (1 : Fin 2) * 128 + 128; rw [e5]; omega

/-- THE PRODUCT ARRAY after the first region: `project1` of the features and the first weight the region finds, whole. -/
theorem array_eq (c : Dev nD) :
    (dat0 V c).arrAt 2 cfg0.N = Cert.Gcn.project1 (V c main_arg0) (V c main_arg2) :=
  (dat0 V c).arrAt_eq_of_cover 2 (Cert.Gcn.project1 (V c main_arg0) (V c main_arg2)) (fun t _ => flushed_eq V c t) cover

end Cert.KernelIdeal.FirstProduct

end
-- ==== Proof.SecondProduct.lean ====
/-
  The second stage, relu(a + b₁) · W₂, computed 5000 rows at a time. The grid has 20 points; point t stages rows
  5000·t … 5000·t + 4999 of the aggregate a, the bias as one row, and the whole 128 × 64 weight; it adds the bias row to every
  row of the block, takes the maximum with zero, multiplies by the weight into a zero accumulator and writes the product
  back as rows 5000·t … 5000·t + 4999 of the result. On the extended reals a change of float format is the identity and a
  block product into zero is the plain sum over the contracted axis, so entry (p, q) of point t's block is
  Σ_k max (a[5000·t + p, k] + b₁[0, k]) 0 · W₂[k, q]: entry (5000·t + p, q) of `project2 a b₁ W₂`. The 20 blocks tile the
  100000 rows, so after the region the whole result array is `project2` of the three arrays the region found.
  Stated at any contents `V` of the buffers at the region's entry.
-/
import proofs.«138788_j39591008534759_1_alg».proof.Proof.Gen.KernelIdeal.Frame
import proofs.«138788_j39591008534759_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.SecondProduct

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-! The block product's operand indices at output entry i and contraction index q: row i₀ and column q of the left
    block, row q and column i₁ of the right one. -/

theorem lhs_blk_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_blk_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhs_blk_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhs_blk_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The body's stored value at entry (p, q) of its block: the sum over k of the rectified (aggregate + bias) entry (p, k)
    times the weight's entry (k, q) — the block product into a zero accumulator of the hidden block, the change of float
    format the identity on the extended reals. -/
theorem pay_apply (x0 : Vec Ideal S5000x128 .f32) (x1 : Vec Ideal S1x128 .f32) (x2 : Vec Ideal S128x64 .f32) (p : Fin 5000) (q : Fin 64) :
    (k1_pay1 (F := Ideal) x0 x1 x2 : FVec Ideal S5000x64 .f32) (ix2 p q)
      = ∑ k : Fin 128, max (x0 (ix2 p k) + x1 (ix2 (0 : Fin 1) k)) Cert.Gcn.zeroWord * x2 (ix2 k q) := by
  unfold k1_pay1
  show FloatOps.matmul dot_S5000x128_S128x64_S5000x64_1_0_0_1_n_n none
      (truncf (F := Ideal) .bf16 (maximumf (F := Ideal) (addf (F := Ideal) (shapeCast S5000x128 x0 shapeCasts_S5000x128_S5000x128)
          (broadcastTo S5000x128 (shapeCast S1x128 x1 shapeCasts_S1x128_S1x128) broadcasts_S1x128_S5000x128))
        (broadcast S5000x128 (Scalar.ofBits (F := Ideal) .f32 0x00000000#32))) bitsLt_bf16_f32)
      (truncf (F := Ideal) .bf16 x2 bitsLt_bf16_f32) (constant (F := Ideal) S5000x64 .f32 0x00000000#32) (ix2 p q) = _
  rw [Ideal.matmul_constant_zero_apply, ← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q) ((contrEquiv1 dot_S5000x128_S128x64_S5000x64_1_0_0_1_n_n 128 rfl rfl).symm k) = ix2 p k := funext fun a => Fin.ext (by
    match a with
    | ⟨0, _⟩ => exact lhs_blk_0 _ _
    | ⟨1, _⟩ => exact (lhs_blk_1 _ _).trans hk)
  have er : dot_S5000x128_S128x64_S5000x64_1_0_0_1_n_n.rhsIdx (ix2 p q) ((contrEquiv1 dot_S5000x128_S128x64_S5000x64_1_0_0_1_n_n 128 rfl rfl).symm k) = ix2 k q := funext fun a => Fin.ext (by
    match a with
    | ⟨0, _⟩ => exact (rhs_blk_0 _ _).trans hk
    | ⟨1, _⟩ => exact rhs_blk_1 _ _)
  rw [el, er]
  simp only [truncf_apply, maximumf_apply, addf_apply, broadcast_apply, shapeCast_self, broadcastTo_1b_ab_apply]
  rfl

/-- One entry of one block against one entry of the whole arrays: if row y₀ of the staged aggregate block is row i₀ of the
    aggregate, the staged bias row and weight are the bias row and the weight, and y and i lie in the same column, the
    body's value at y is `project2` at i. -/
theorem point_eq (a : FVec Ideal Cert.Gcn.Nodes128 .f32) (b : FVec Ideal Cert.Gcn.Row128 .f32) (w : FVec Ideal Cert.Gcn.W128x64 .f32)
    (x0 : Vec Ideal S5000x128 .f32) (x1 : Vec Ideal S1x128 .f32) (x2 : Vec Ideal S128x64 .f32) (y : S5000x64.Idx) (i : Cert.Gcn.Nodes64.Idx)
    (h0 : ∀ k : Fin 128, x0 (ix2 (⟨(y 0).val, (y 0).isLt⟩ : Fin 5000) k) = a (ix2 (⟨(i 0).val, (i 0).isLt⟩ : Fin 100000) k))
    (h1 : ∀ k : Fin 128, x1 (ix2 (0 : Fin 1) k) = b (ix2 (0 : Fin 1) k))
    (h2 : ∀ (k : Fin 128) (q : Fin 64), x2 (ix2 k q) = w (ix2 k q)) (hq : (i 1).val = (y 1).val) :
    (k1_pay1 (F := Ideal) x0 x1 x2 : FVec Ideal S5000x64 .f32) y = Cert.Gcn.project2 a b w i := by
  obtain ⟨p, q, rfl⟩ : ∃ (p : Fin 5000) (q : Fin 64), y = ix2 p q := ⟨y 0, y 1, eq_ix2 y⟩
  rw [pay_apply]
  unfold Cert.Gcn.project2
  have e : (⟨(i 1).val, (i 1).isLt⟩ : Fin 64) = q := Fin.ext hq
  rw [e]
  refine Finset.sum_congr rfl fun k _ => ?_
  have h0k : x0 (ix2 p k) = a (ix2 (⟨(i 0).val, (i 0).isLt⟩ : Fin 100000) k) := h0 k
  rw [h2, h1, h0k]
  rfl

/-- The printed index maps over the 20 grid points: the row-blocked windows sit at block (t, 0), the bias row and the
    weight at (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of `project2` of the arrays the region finds. -/
theorem flushed_eq (c : Dev nD) (t : Fin cfg1.N) :
    (dat1 V c).flushed 3 t = ((cfg1.win 3).blk t).view.read (Elt Ideal) (Cert.Gcn.project2 (V c main_v53) (V c main_v54) (V c main_arg4)) := by
  show (cfg1.win 3).cut (grid1.coords t) ((dat1 V c).after 3 t) = _
  rw [after1_3]
  unfold out1_3
  rw [View.canon_unit_zero hz]
  simp only [View.ld_unit_zero (S := S5000x128) hz, View.ld_unit_zero (S := S1x128) hz, View.ld_unit_zero (S := S128x64) hz]
  obtain ⟨e0, e1, e2, e3, e4, e5, e6, e7⟩ := idx_facts t
  funext j
  show (k1_pay1 (F := Ideal) (iblk1 V c 0 t) (iblk1 V c 1 t) (iblk1 V c 2 t) : FVec Ideal S5000x64 .f32) ((win1 3).xinj (grid1.coords t) j)
    = Cert.Gcn.project2 (V c main_v53) (V c main_v54) (V c main_arg4) (((cfg1.win 3).blk t).view.emb j)
  refine point_eq (V c main_v53) (V c main_v54) (V c main_arg4) (iblk1 V c 0 t) (iblk1 V c 1 t) (iblk1 V c 2 t) ((win1 3).xinj (grid1.coords t) j) (((cfg1.win 3).blk t).view.emb j) ?_ ?_ ?_ ?_
  · intro k
    show V c main_v53 (((cfg1.win 0).blk t).view.emb (ix2 (⟨(j 0).val, _⟩ : Fin 5000) k)) = V c main_v53 (ix2 (⟨((((cfg1.win 3).blk t).view.emb j) 0).val, _⟩ : Fin 100000) k)
    refine congrArg (V c main_v53) (funext fun a => Fin.ext ?_)
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 128 + 1 * k.val = k.val; omega
  · intro k
    show V c main_v54 (((cfg1.win 1).blk t).view.emb (ix2 (0 : Fin 1) k)) = V c main_v54 (ix2 (0 : Fin 1) k)
    refine congrArg (V c main_v54) (funext fun a => Fin.ext ?_)
    match a with
    | ⟨0, _⟩ => show win1_1.index t (0 : Fin 2) * 1 + 1 * 0 = 0; omega
    | ⟨1, _⟩ => show win1_1.index t (1 : Fin 2) * 128 + 1 * k.val = k.val; omega
  · intro k q
    show V c main_arg4 (((cfg1.win 2).blk t).view.emb (ix2 k q)) = V c main_arg4 (ix2 k q)
    refine congrArg (V c main_arg4) (funext fun a => Fin.ext ?_)
    match a with
    | ⟨0, _⟩ => show win1_2.index t (0 : Fin 2) * 128 + 1 * k.val = k.val; omega
    | ⟨1, _⟩ => show win1_2.index t (1 : Fin 2) * 64 + 1 * q.val = q.val; omega
  · show win1_3.index t (1 : Fin 2) * 64 + 1 * (j 1).val = (j 1).val
    omega

/-- An index of the product array lies in point t's block iff each coordinate lies in the block's range on its axis. -/
theorem mem_blk (t : Fin cfg1.N) (i : S100000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v55).slice (win1_3.rect t)).set ↔ _
  rw [View.set_slice_whole, Rect.mem_set_unit]
  exact Iff.rfl

/-- Every index of the product array lies in the block of the point its row falls in: row r in block r / 5000. -/
theorem cover (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  refine ⟨⟨(i 0).val / 5000, by rw [show cfg1.N = 20 from N_1]; omega⟩, flush1_3 _, ?_⟩
  rw [mem_blk]
  obtain ⟨-, -, -, -, -, -, e6, e7⟩ := idx_facts ⟨(i 0).val / 5000, by rw [show cfg1.N = 20 from N_1]; omega⟩
  intro a
  match a with
  | ⟨0, _⟩ => show win1_3.index _ (0 : Fin 2) * 5000 ≤ (i 0).val ∧ (i 0).val < win1_3.index _ (0 : Fin 2) * 5000 + 5000; rw [e6]; show (i 0).val / 5000 * 5000 ≤ (i 0).val ∧ (i 0).val < (i 0).val / 5000 * 5000 + 5000; omega
  | ⟨1, _⟩ => show win1_3.index _ (1 : Fin 2) * 64 ≤ (i 1).val ∧ (i 1).val < win1_3.index _ (1 : Fin 2) * 64 + 64; rw [e7]; omega

/-- THE SECOND PRODUCT ARRAY after the second region: `project2` of the aggregate, the bias row and the second weight the
    region finds, whole. -/
theorem array_eq (c : Dev nD) :
    (dat1 V c).arrAt 3 cfg1.N = Cert.Gcn.project2 (V c main_v53) (V c main_v54) (V c main_arg4) :=
  (dat1 V c).arrAt_eq_of_cover 3 (Cert.Gcn.project2 (V c main_v53) (V c main_v54) (V c main_arg4)) (fun t _ => flushed_eq V c t) cover

end Cert.KernelIdeal.SecondProduct

end
-- ==== Proof.OutputStage.lean ====
/-
  The last stage, relu(a + b₂), computed 5000 rows at a time. The grid has 20 points; point t stages rows
  5000·t … 5000·t + 4999 of the second aggregate a and the bias as one row, adds the bias row to every row of the block, takes
  the maximum with zero and writes the block back as rows 5000·t … 5000·t + 4999 of the result: entry (p, q) of point t's
  block is max (a[5000·t + p, q] + b₂[0, q]) 0, entry (5000·t + p, q) of `output a b₂`. The 20 blocks tile the 100000 rows,
  so after the region the whole result array is `output` of the two arrays the region found.
  Stated at any contents `V` of the buffers at the region's entry.
-/
import proofs.«138788_j39591008534759_1_alg».proof.Proof.Gen.KernelIdeal.Frame
import proofs.«138788_j39591008534759_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.OutputStage

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's stored value at entry (p, q) of its block: the aggregate's entry plus the bias row's entry q, rectified. -/
theorem pay_apply (x0 : Vec Ideal S5000x64 .f32) (x1 : Vec Ideal S1x64 .f32) (p : Fin 5000) (q : Fin 64) :
    (k2_pay1 (F := Ideal) x0 x1 : FVec Ideal S5000x64 .f32) (ix2 p q) = max (x0 (ix2 p q) + x1 (ix2 (0 : Fin 1) q)) Cert.Gcn.zeroWord := by
  unfold k2_pay1
  simp only [maximumf_apply, addf_apply, broadcast_apply, shapeCast_self, broadcastTo_1b_ab_apply]
  rfl

/-- One entry of one block against one entry of the whole arrays: if the block's entry y is the aggregate's entry i, the
    staged bias row is the bias row, and y and i lie in the same column, the body's value at y is `output` at i. -/
theorem point_eq (a : FVec Ideal Cert.Gcn.Nodes64 .f32) (b : FVec Ideal Cert.Gcn.Row64 .f32)
    (x0 : Vec Ideal S5000x64 .f32) (x1 : Vec Ideal S1x64 .f32) (y : S5000x64.Idx) (i : Cert.Gcn.Nodes64.Idx)
    (h0 : x0 y = a i) (h1 : ∀ q : Fin 64, x1 (ix2 (0 : Fin 1) q) = b (ix2 (0 : Fin 1) q)) (hq : (i 1).val = (y 1).val) :
    (k2_pay1 (F := Ideal) x0 x1 : FVec Ideal S5000x64 .f32) y = Cert.Gcn.output a b i := by
  obtain ⟨p, q, rfl⟩ : ∃ (p : Fin 5000) (q : Fin 64), y = ix2 p q := ⟨y 0, y 1, eq_ix2 y⟩
  rw [pay_apply, h0, h1]
  unfold Cert.Gcn.output
  have e : (⟨(i 1).val, (i 1).isLt⟩ : Fin 64) = q := Fin.ext hq
  rw [e]

/-- The printed index maps over the 20 grid points: the row-blocked windows sit at block (t, 0), the bias row at (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of `output` of the arrays the region finds. -/
theorem flushed_eq (c : Dev nD) (t : Fin cfg2.N) :
    (dat2 V c).flushed 2 t = ((cfg2.win 2).blk t).view.read (Elt Ideal) (Cert.Gcn.output (V c main_v73) (V c main_v74)) := by
  show (cfg2.win 2).cut (grid2.coords t) ((dat2 V c).after 2 t) = _
  rw [after2_2]
  unfold out2_2
  rw [View.canon_unit_zero hz]
  simp only [View.ld_unit_zero (S := S5000x64) hz, View.ld_unit_zero (S := S1x64) hz]
  obtain ⟨e0, e1, e2, e3, e4, e5⟩ := idx_facts t
  funext j
  show (k2_pay1 (F := Ideal) (iblk2 V c 0 t) (iblk2 V c 1 t) : FVec Ideal S5000x64 .f32) ((win2 2).xinj (grid2.coords t) j)
    = Cert.Gcn.output (V c main_v73) (V c main_v74) (((cfg2.win 2).blk t).view.emb j)
  refine point_eq (V c main_v73) (V c main_v74) (iblk2 V c 0 t) (iblk2 V c 1 t) ((win2 2).xinj (grid2.coords t) j) (((cfg2.win 2).blk t).view.emb j) ?_ ?_ ?_
  · show V c main_v73 (((cfg2.win 0).blk t).view.emb j) = V c main_v73 (((cfg2.win 2).blk t).view.emb j)
    refine congrArg (V c main_v73) (funext fun a => Fin.ext ?_)
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 64 + 1 * (j 1).val = win2_2.index t (1 : Fin 2) * 64 + 1 * (j 1).val; omega
  · intro q
    show V c main_v74 (((cfg2.win 1).blk t).view.emb (ix2 (0 : Fin 1) q)) = V c main_v74 (ix2 (0 : Fin 1) q)
    refine congrArg (V c main_v74) (funext fun a => Fin.ext ?_)
    match a with
    | ⟨0, _⟩ => show win2_1.index t (0 : Fin 2) * 1 + 1 * 0 = 0; omega
    | ⟨1, _⟩ => show win2_1.index t (1 : Fin 2) * 64 + 1 * q.val = q.val; omega
  · show win2_2.index t (1 : Fin 2) * 64 + 1 * (j 1).val = (j 1).val
    omega

/-- An index of the result array lies in point t's block iff each coordinate lies in the block's range on its axis. -/
theorem mem_blk (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v75).slice (win2_2.rect t)).set ↔ _
  rw [View.set_slice_whole, Rect.mem_set_unit]
  exact Iff.rfl

/-- Every index of the result array lies in the block of the point its row falls in: row r in block r / 5000. -/
theorem cover (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  refine ⟨⟨(i 0).val / 5000, by rw [show cfg2.N = 20 from N_2]; omega⟩, flush2_2 _, ?_⟩
  rw [mem_blk]
  obtain ⟨-, -, -, -, e4, e5⟩ := idx_facts ⟨(i 0).val / 5000, by rw [show cfg2.N = 20 from N_2]; omega⟩
  intro a
  match a with
  | ⟨0, _⟩ => show win2_2.index _ (0 : Fin 2) * 5000 ≤ (i 0).val ∧ (i 0).val < win2_2.index _ (0 : Fin 2) * 5000 + 5000; rw [e4]; show (i 0).val / 5000 * 5000 ≤ (i 0).val ∧ (i 0).val < (i 0).val / 5000 * 5000 + 5000; omega
  | ⟨1, _⟩ => show win2_2.index _ (1 : Fin 2) * 64 ≤ (i 1).val ∧ (i 1).val < win2_2.index _ (1 : Fin 2) * 64 + 64; rw [e5]; omega

/-- THE RESULT ARRAY after the last region: `output` of the aggregate and the bias row the region finds, whole. -/
theorem array_eq (c : Dev nD) :
    (dat2 V c).arrAt 2 cfg2.N = Cert.Gcn.output (V c main_v73) (V c main_v74) :=
  (dat2 V c).arrAt_eq_of_cover 2 (Cert.Gcn.output (V c main_v73) (V c main_v74)) (fun t _ => flushed_eq V c t) cover

end Cert.KernelIdeal.OutputStage

end
-- ==== Proof.Meets.lean ====
/-
  Where the two programs' dense stages meet. The reference computes each dense stage by one whole-array operation; read at
  an entry (through the reference's own stages, one operation at a time) these are

    x · W₁                     (r, j) ↦ Σ_k x[r, k] · W₁[k, j]
    relu(agg₁ + b₁) · W₂       (r, j) ↦ Σ_k max (agg₁[r, k] + b₁[k]) 0 · W₂[k, j]
    relu(agg₂ + b₂)            (r, j) ↦ max (agg₂[r, j] + b₂[j]) 0

  the bias broadcast first to one row and then down the rows, the zero of the rectifier a broadcast constant. These are the
  functions `project1`, `project2`, `output` entry for entry, once the bias ROW those take is the bias vector laid out as
  one row (`hb`): the same sums over k ∈ Fin 128 in the same order, the same maximum against the same zero word. No law of
  the extended reals is used beyond reading each operation at an entry.
-/
import proofs.«138788_j39591008534759_1_alg».proof.Proof.RefRead
import proofs.«138788_j39591008534759_1_alg».proof.Proof.Spec
import Idealize.ShloMosaic.Lib.ValueIdx

noncomputable section

open scoped BigOperators
open Idealize.ShloMosaic Idealize.ShloMosaic.TcCoe Idealize.ShloMosaic.ValueIdx

namespace Cert.Gcn.Meets

open Cert.ReferenceIdeal Cert.ReferenceIdeal.ReadP

/-- The first product is the reference's matrix product of the features and the first weight: both are the sum over
    k ∈ Fin 128 of x[r, k] · w[k, j], read at the same entries. -/
theorem project1_eq (x0 : (⟨S100000x128, .f32⟩ : BufTy).Contents (Elt Ideal)) (x2 : (⟨S128x128, .f32⟩ : BufTy).Contents (Elt Ideal)) :
    Cert.Gcn.project1 x0 x2 = val_main_v35 (F := Ideal) x0 x2 := by
  funext i
  rw [val_main_v35_apply]
  unfold Cert.Gcn.project1
  refine Finset.sum_congr rfl fun k _ => ?_
  have el : (ix2 (⟨(i 0).val, (i 0).isLt⟩ : Fin 100000) k : S100000x128.Idx) = lidx_main_v35 i k :=
    funext fun a => by match a with | ⟨0, _⟩ => rfl | ⟨1, _⟩ => rfl
  have er : (ix2 k (⟨(i 1).val, (i 1).isLt⟩ : Fin 128) : S128x128.Idx) = ridx_main_v35 i k :=
    funext fun a => by match a with | ⟨0, _⟩ => rfl | ⟨1, _⟩ => rfl
  rw [el, er]

/-- The second product, fed the reference's first aggregate and a bias row that is the bias vector laid out as one
    row, is the reference's second matrix product: entry by entry both are the sum over k of
    max (agg[r, k] + b₁[k]) 0 · w[k, j]. -/
theorem project2_eq (x0 : (⟨S100000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal))
    (x4 : (⟨S128x64, .f32⟩ : BufTy).Contents (Elt Ideal)) (b : FVec Ideal Cert.Gcn.Row128 .f32)
    (hb : ∀ k : Fin 128, b (ix2 (0 : Fin 1) k) = x3 (ix1 k)) :
    Cert.Gcn.project2 (val_main_v53 (F := Ideal) x0 x1 x2) b x4 = val_main_v58 (F := Ideal) x0 x1 x2 x3 x4 := by
  funext i
  rw [val_main_v58_apply]
  unfold Cert.Gcn.project2
  refine Finset.sum_congr rfl fun k _ => ?_
  rw [val_main_v57_apply, val_main_v56_apply, val_main_v55_apply, val_main_v54_apply, val_main_call1_v0_apply, val_main_call1_cst_apply]
  unfold Cert.Gcn.hidden
  have el : (ix2 (⟨(i 0).val, (i 0).isLt⟩ : Fin 100000) k : S100000x128.Idx) = lidx_main_v58 i k :=
    funext fun a => by match a with | ⟨0, _⟩ => rfl | ⟨1, _⟩ => rfl
  have er : (ix2 k (⟨(i 1).val, (i 1).isLt⟩ : Fin 64) : S128x64.Idx) = ridx_main_v58 i k :=
    funext fun a => by match a with | ⟨0, _⟩ => rfl | ⟨1, _⟩ => rfl
  have hbk : b (ix2 (0 : Fin 1) k) = x3 (idx_main_v54 (idx_main_v55 (lidx_main_v58 i k))) :=
    (hb k).trans (congrArg x3 (funext fun a => by match a with | ⟨0, _⟩ => rfl))
  rw [← el, ← er, ← hbk]
  rfl

/-- The output stage, fed the reference's second aggregate and a bias row that is the bias vector laid out as one row, is
    the reference's result: entry by entry both are max (agg[r, j] + b₂[j]) 0. -/
theorem output_eq (x0 : (⟨S100000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal))
    (x4 : (⟨S128x64, .f32⟩ : BufTy).Contents (Elt Ideal)) (x5 : (⟨S64, .f32⟩ : BufTy).Contents (Elt Ideal))
    (b : FVec Ideal Cert.Gcn.Row64 .f32) (hb : ∀ q : Fin 64, b (ix2 (0 : Fin 1) q) = x5 (ix1 q)) :
    Cert.Gcn.output (val_main_v76 (F := Ideal) x0 x1 x2 x3 x4) b = val_main_v80 (F := Ideal) x0 x1 x2 x3 x4 x5 := by
  funext i
  rw [val_main_v80_apply, val_main_v79_apply, val_main_v78_apply, val_main_v77_apply, val_main_call2_v0_apply, val_main_call2_cst_apply]
  unfold Cert.Gcn.output
  have hbq : b (ix2 (0 : Fin 1) (⟨(i 1).val, (i 1).isLt⟩ : Fin 64)) = x5 (idx_main_v77 (idx_main_v78 i)) :=
    (hb _).trans (congrArg x5 (funext fun a => by match a with | ⟨0, _⟩ => rfl))
  rw [hbq]
  rfl

end Cert.Gcn.Meets

end
-- ==== Proof.KernelValue.lean ====
/-
  What the run leaves in the result array, as a function of the six argument arrays. Reading back from the last boundary:
  the result array is `output` of the second aggregate and the second bias row (the last stage); the second aggregate is
  the aggregation of what the second stage left, which is `project2` of the first aggregate, the first bias row and the
  second weight; the first aggregate is the aggregation of what the first stage left, which is `project1` of the features
  and the first weight. Each of these is, link by link, the reference's own stage of the same arguments: the first product
  its first matrix product, the first aggregate its first scatter-add, and so on up to its result. So the result array ends
  at the reference's result term of the kernel's own arguments.
-/
import proofs.«138788_j39591008534759_1_alg».proof.Proof.Gen.KernelIdeal.Frame
import proofs.«138788_j39591008534759_1_alg».proof.Proof.HostChains
import proofs.«138788_j39591008534759_1_alg».proof.Proof.FirstProduct
import proofs.«138788_j39591008534759_1_alg».proof.Proof.SecondProduct
import proofs.«138788_j39591008534759_1_alg».proof.Proof.OutputStage
import proofs.«138788_j39591008534759_1_alg».proof.Proof.Meets
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.ValueIdx

namespace Cert.KernelIdeal.Result

open Cert.KernelIdeal Cert.KernelIdeal.Gen Cert.KernelIdeal.Host
open Cert.ReferenceIdeal.ReadP (val_main_v35 val_main_v53 val_main_v58 val_main_v76 val_main_v80)

variable (m : (ℓ : Loc nD τ sig) → Buf (Elt Ideal) ℓ) (ρ : Dev nD → PrngReg)

/-- A bias laid out as one row holds, at column k of its one row, the bias's entry k. -/
theorem row128_apply (b : (⟨S128, .f32⟩ : BufTy).Contents (Elt Ideal)) (k : Fin 128) :
    row128 (F := Ideal) b (ix2 (0 : Fin 1) k) = b (ix1 k) := by
  unfold row128
  exact shapeCast_a_1a_apply b shapeCasts_S128_S1x128 0 k

theorem row64_apply (b : (⟨S64, .f32⟩ : BufTy).Contents (Elt Ideal)) (q : Fin 64) :
    row64 (F := Ideal) b (ix2 (0 : Fin 1) q) = b (ix1 q) := by
  unfold row64
  exact shapeCast_a_1a_apply b shapeCasts_S64_S1x64 0 q

/-- After the first region its result array holds the reference's first matrix product of the features and the first weight. -/
theorem first_product (c : Dev nD) :
    W4 m ρ c (Proc.devRef .tc main_v35) = val_main_v35 (F := Ideal) (m ((c.tc : Thread nD τ).loc main_arg0)) (m ((c.tc : Thread nD τ).loc main_arg2)) := by
  refine ((W4_arr m ρ c 2).trans (FirstProduct.array_eq (V3 m ρ) c)).trans ?_
  show Cert.Gcn.project1 (W3 m ρ c (Proc.devRef .tc main_arg0)) (W3 m ρ c (Proc.devRef .tc main_arg2)) = _
  rw [W3_arg0, W3_arg2]
  exact Cert.Gcn.Meets.project1_eq _ _

/-- Before the second region the first aggregate is the reference's. -/
theorem first_aggregate (c : Dev nD) :
    W5 m ρ c (Proc.devRef .tc main_v53) = val_main_v53 (F := Ideal) (m ((c.tc : Thread nD τ).loc main_arg0)) (m ((c.tc : Thread nD τ).loc main_arg1)) (m ((c.tc : Thread nD τ).loc main_arg2)) := by
  rw [W5_v53, first_product]
  exact (ref_agg128 _ _ _).symm

/-- After the second region its result array holds the reference's second matrix product. -/
theorem second_product (c : Dev nD) :
    W6 m ρ c (Proc.devRef .tc main_v55) = val_main_v58 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine ((W6_arr m ρ c 3).trans (SecondProduct.array_eq (V5 m ρ) c)).trans ?_
  show Cert.Gcn.project2 (W5 m ρ c (Proc.devRef .tc main_v53)) (W5 m ρ c (Proc.devRef .tc main_v54)) (W5 m ρ c (Proc.devRef .tc main_arg4)) = _
  rw [first_aggregate, W5_v54, W5_arg4]
  exact Cert.Gcn.Meets.project2_eq _ _ _ _ _ _ (fun k => row128_apply _ k)

/-- Before the last region the second aggregate is the reference's. -/
theorem second_aggregate (c : Dev nD) :
    W7 m ρ c (Proc.devRef .tc main_v73) = val_main_v76 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  rw [W7_v73, second_product]
  exact (ref_agg64 _ _ _ _ _).symm

/-- THE RESULT: after the last region the result array holds the reference's result term of the kernel's own arguments. -/
theorem result_eq (c : Dev nD) :
    W8 m ρ c (Proc.devRef .tc main_v75) = val_main_v80 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine ((W8_arr m ρ c 2).trans (OutputStage.array_eq (V7 m ρ) c)).trans ?_
  show Cert.Gcn.output (W7 m ρ c (Proc.devRef .tc main_v73)) (W7 m ρ c (Proc.devRef .tc main_v74)) = _
  rw [second_aggregate, W7_v74]
  exact Cert.Gcn.Meets.output_eq _ _ _ _ _ _ _ (fun q => row64_apply _ q)

end Cert.KernelIdeal.Result

end
-- ==== Proof.lean ====
/-
  A two-layer graph convolution, `relu(Â · relu(Â · x W₁ + b₁) W₂ + b₂)` with `Â` the symmetric-normalised adjacency with self
  loops, on 100000 nodes and 800000 edges. The kernel computes the three dense stages (x W₁; relu(· + b₁) W₂; relu(· + b₂))
  twenty row blocks of 5000 nodes at a time and leaves the two aggregations `Â ·` (gather, scale, scatter-add) to the host;
  the reference computes everything on the host, with the same operations on the same edge list for the aggregations.

  The proof. Each dense stage, read block by block, leaves in its result array ONE function of the arrays it found, entry by
  entry: Σ_k x[r, k] · W₁[k, j]; Σ_k max (a[r, k] + b₁[k]) 0 · W₂[k, j]; max (a[r, j] + b₂[j]) 0 (FirstProduct, SecondProduct,
  OutputStage over Spec). These are the reference's matrix products and rectified sums read at an entry (Meets): on the
  extended reals a change of float format is the identity and a block product into a zero accumulator is the plain sum over
  k ∈ Fin 128, in the same order on both sides, so no law of the extended reals is needed and the inputs' finiteness is
  never used. The host stretches between the stages are the reference's own stages of the same values (HostChains), so the
  kernel's result array ends at the reference's result term of the kernel's arguments (KernelValue, over the run with its
  result named, KernelRun); the reference's run ends at the same term of its own arguments (RefRun, RefRead), which agree.
  The three frames are the programs' runs with the result dropped; the idealisation rewrote nothing, so `preserves` is trivial.
-/
import proofs.«138788_j39591008534759_1_alg».proof.Defs
import proofs.«138788_j39591008534759_1_alg».proof.Proof.Gen.Kernel
import proofs.«138788_j39591008534759_1_alg».proof.Proof.Gen.Kernel.Skeleton
import proofs.«138788_j39591008534759_1_alg».proof.Proof.Gen.Kernel.Launch
import proofs.«138788_j39591008534759_1_alg».proof.Proof.Gen.Kernel.Points
import proofs.«138788_j39591008534759_1_alg».proof.Proof.Gen.Kernel.Frame
import proofs.«138788_j39591008534759_1_alg».proof.Proof.Gen.KernelIdeal
import proofs.«138788_j39591008534759_1_alg».proof.Proof.Gen.KernelIdeal.Skeleton
import proofs.«138788_j39591008534759_1_alg».proof.Proof.Gen.KernelIdeal.Launch
import proofs.«138788_j39591008534759_1_alg».proof.Proof.Gen.KernelIdeal.Points
import proofs.«138788_j39591008534759_1_alg».proof.Proof.Gen.KernelIdeal.Frame
import proofs.«138788_j39591008534759_1_alg».proof.Proof.Gen.ReferenceIdeal
import proofs.«138788_j39591008534759_1_alg».proof.Proof.Gen.Pre_finite_inputs
import proofs.«138788_j39591008534759_1_alg».proof.Proof.RefRun
import proofs.«138788_j39591008534759_1_alg».proof.Proof.RefRead
import proofs.«138788_j39591008534759_1_alg».proof.Proof.KernelRun
import proofs.«138788_j39591008534759_1_alg».proof.Proof.KernelValue
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference's frame is its run with the result dropped. -/
theorem frame_reference_ideal : Cert.frame_ReferenceIdeal := fun m ρ _ =>
  (θ_run Cert.ReferenceIdeal.defs _ _).mono (fun _ h c => (h c).2) (Cert.ReferenceIdeal.ValueP.run (F := Ideal) m ρ)

/-- On the extended reals, from memories agreeing on the six arguments, both programs end with the result array at the
    reference's result term of the kernel's arguments: the kernel's by reading its three stages and the host stretches
    between them, the reference's by its own run and the arguments' agreement. -/
theorem algebraic : Cert.algebraic_KernelIdeal_ReferenceIdeal := by
  intro m ρ m' ρ' _ hagree
  refine ⟨fun c => Cert.ReferenceIdeal.ReadP.val_main_v80 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Result.result_eq m ρ c), (h c).2⟩)
      (Cert.KernelIdeal.GenP.run_result (F := Ideal) m ρ)
  · refine (θ_run Cert.ReferenceIdeal.defs _ _).mono (fun _ h c => ⟨(h c).1.trans ?_, (h c).2⟩)
      (Cert.ReferenceIdeal.ValueP.run (F := Ideal) m' ρ')
    obtain ⟨h0, h1, h2, h3, h4, h5⟩ := hagree c
    rw [Cert.ReferenceIdeal.ReadP.val_main_v80_eq, h0, h1, h2, h3, h4, h5]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
